-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x128 : Shape := ⟨3, ![64, 32, 128]⟩
abbrev S2x64x256x128 : Shape := ⟨4, ![2, 64, 256, 128]⟩
abbrev S2x64x256 : Shape := ⟨3, ![2, 64, 256]⟩
abbrev S64x2 : Shape := ⟨2, ![64, 2]⟩
abbrev S_ : Shape := ⟨0, ![]⟩

class Facts : Prop where
  bcast_S_S64x32x128 : S_.BroadcastsInDim S64x32x128 (![] : Fin 0 → Fin S64x32x128.rank)
  reducesTo_S64x32x128_S_d0_1_2 : S64x32x128.ReducesTo [0, 1, 2] S_
  h_S_ : 0 < S_.numel
  bcast_S_S2x64x256x128 : S_.BroadcastsInDim S2x64x256x128 (![] : Fin 0 → Fin S2x64x256x128.rank)
  reducesTo_S2x64x256x128_S_d0_1_2_3 : S2x64x256x128.ReducesTo [0, 1, 2, 3] S_
  bcast_S_S64x2 : S_.BroadcastsInDim S64x2 (![] : Fin 0 → Fin S64x2.rank)
  reducesTo_S64x2_S_d0_1 : S64x2.ReducesTo [0, 1] S_

variable [Facts]

def fn {F : FTy → Type} [FloatOps F] (main_arg0 : FVec F S64x32x128 .f32) (main_arg1 : FVec F S2x64x256x128 .f32) (main_arg2 : IVec S2x64x256 32) (main_arg3 : FVec F S64x2 .f32) : IVec S_ 1 :=
  let main_v0 : FVec F S64x32x128 .f32 := Host.absf main_arg0
  let main_cst : FVec F S_ .f32 := constant S_ .f32 0x7F800000#32
  let main_v1 : FVec F S64x32x128 .f32 := broadcastInDim S64x32x128 ![] bcast_S_S64x32x128 main_cst
  let main_v2 : IVec S64x32x128 1 := cmpf .olt main_v0 main_v1
  let main_c : IVec S_ 1 := constantI S_ 1 1#1
  let main_v3 : IVec S_ 1 := (fun x v => Host.reduce IntOp.andi x v reducesTo_S64x32x128_S_d0_1_2 h_S_) main_v2 main_c
  let main_v4 : FVec F S2x64x256x128 .f32 := Host.absf main_arg1
  let main_cst_0 : FVec F S_ .f32 := constant S_ .f32 0x7F800000#32
  let main_v5 : FVec F S2x64x256x128 .f32 := broadcastInDim S2x64x256x128 ![] bcast_S_S2x64x256x128 main_cst_0
  let main_v6 : IVec S2x64x256x128 1 := cmpf .olt main_v4 main_v5
  let main_c_1 : IVec S_ 1 := constantI S_ 1 1#1
  let main_v7 : IVec S_ 1 := (fun x v => Host.reduce IntOp.andi x v reducesTo_S2x64x256x128_S_d0_1_2_3 h_S_) main_v6 main_c_1
  let main_v8 : IVec S_ 1 := andi main_v3 main_v7
  let main_v9 : FVec F S64x2 .f32 := Host.absf main_arg3
  let main_cst_2 : FVec F S_ .f32 := constant S_ .f32 0x7F800000#32
  let main_v10 : FVec F S64x2 .f32 := broadcastInDim S64x2 ![] bcast_S_S64x2 main_cst_2
  let main_v11 : IVec S64x2 1 := cmpf .olt main_v9 main_v10
  let main_c_3 : IVec S_ 1 := constantI S_ 1 1#1
  let main_v12 : IVec S_ 1 := (fun x v => Host.reduce IntOp.andi x v reducesTo_S64x2_S_d0_1 h_S_) main_v11 main_c_3
  let main_v13 : IVec S_ 1 := andi main_v8 main_v12
  main_v13
-- ==== Kernel.lean ====
abbrev S64x32x128 : Shape := ⟨3, ![64, 32, 128]⟩
abbrev S2x64x256x128 : Shape := ⟨4, ![2, 64, 256, 128]⟩
abbrev S2x64x256 : Shape := ⟨3, ![2, 64, 256]⟩
abbrev S64x2 : Shape := ⟨2, ![64, 2]⟩
abbrev S2x64x64 : Shape := ⟨3, ![2, 64, 64]⟩
abbrev S8x32x128 : Shape := ⟨3, ![8, 32, 128]⟩
abbrev S1x64x256x128 : Shape := ⟨4, ![1, 64, 256, 128]⟩
abbrev S1x64x256 : Shape := ⟨3, ![1, 64, 256]⟩
abbrev S1x8x64 : Shape := ⟨3, ![1, 8, 64]⟩
abbrev S8x32 : Shape := ⟨2, ![8, 32]⟩
abbrev S8x32x1 : Shape := ⟨3, ![8, 32, 1]⟩
abbrev S256x128 : Shape := ⟨2, ![256, 128]⟩
abbrev S64x256x128 : Shape := ⟨3, ![64, 256, 128]⟩
abbrev S64x256 : Shape := ⟨2, ![64, 256]⟩
abbrev S64x256x1 : Shape := ⟨3, ![64, 256, 1]⟩
abbrev S64x128 : Shape := ⟨2, ![64, 128]⟩
abbrev S64x1x128 : Shape := ⟨3, ![64, 1, 128]⟩
abbrev S16x256x128 : Shape := ⟨3, ![16, 256, 128]⟩
abbrev S4096x128 : Shape := ⟨2, ![4096, 128]⟩
abbrev S128x4096 : Shape := ⟨2, ![128, 4096]⟩
abbrev S256x4096 : Shape := ⟨2, ![256, 4096]⟩
abbrev S256x16x256 : Shape := ⟨3, ![256, 16, 256]⟩
abbrev S256x16 : Shape := ⟨2, ![256, 16]⟩
abbrev S8x32x16 : Shape := ⟨3, ![8, 32, 16]⟩
abbrev S8x16 : Shape := ⟨2, ![8, 16]⟩
abbrev S1x8x16 : Shape := ⟨3, ![1, 8, 16]⟩
abbrev S64 : Shape := ⟨1, ![64]⟩
abbrev S_ : Shape := ⟨0, ![]⟩
abbrev S64x1 : Shape := ⟨2, ![64, 1]⟩
abbrev S2x64 : Shape := ⟨2, ![2, 64]⟩
abbrev S64x2x64 : Shape := ⟨3, ![64, 2, 64]⟩

abbrev nBuf : Space → Nat
  | .hbm => 90
  | .vmem => 8
  | .smem => 0
  | _ => 0

abbrev bufTy : (tb : Table) → Fin (tcTables nBuf tb) → BufTy
  | .hbm, ⟨0, _⟩ => ⟨S64x32x128, .f32⟩
  | .hbm, ⟨1, _⟩ => ⟨S2x64x256x128, .f32⟩
  | .hbm, ⟨2, _⟩ => ⟨S2x64x256, .i32⟩
  | .hbm, ⟨3, _⟩ => ⟨S64x2, .f32⟩
  | .hbm, ⟨4, _⟩ => ⟨S2x64x64, .f32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i1⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x1, .i32⟩
  | .hbm, ⟨22, _⟩ => ⟨S64x2, .i32⟩
  | .hbm, ⟨23, _⟩ => ⟨S2x64, .f32⟩
  | .hbm, ⟨24, _⟩ => ⟨S64x2, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S64x1, .f32⟩
  | .hbm, ⟨31, _⟩ => ⟨S64x2, .f32⟩
  | .hbm, ⟨32, _⟩ => ⟨S64x2, .f32⟩
  | .hbm, ⟨33, _⟩ => ⟨S64x2, .f32⟩
  | .hbm, ⟨34, _⟩ => ⟨S_, .f32⟩
  | .hbm, ⟨35, _⟩ => ⟨S64, .f32⟩
  | .hbm, ⟨36, _⟩ => ⟨S64x1, .f32⟩
  | .hbm, ⟨37, _⟩ => ⟨S64x1, .f32⟩
  | .hbm, ⟨38, _⟩ => ⟨S64x2, .f32⟩
  | .hbm, ⟨39, _⟩ => ⟨S64x2, .f32⟩
  | .hbm, ⟨40, _⟩ => ⟨S64x2, .f32⟩
  | .hbm, ⟨41, _⟩ => ⟨S64x2, .f32⟩
  | .hbm, ⟨42, _⟩ => ⟨S64x2, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S64x2x64, .f32⟩
  | .hbm, ⟨48, _⟩ => ⟨S64x128, .f32⟩
  | .hbm, ⟨49, _⟩ => ⟨S_, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64x1, .f32⟩
  | .hbm, ⟨55, _⟩ => ⟨S64x128, .f32⟩
  | .hbm, ⟨56, _⟩ => ⟨S64x128, .f32⟩
  | .hbm, ⟨57, _⟩ => ⟨S64x128, .f32⟩
  | .hbm, ⟨58, _⟩ => ⟨S_, .f32⟩
  | .hbm, ⟨59, _⟩ => ⟨S64, .f32⟩
  | .hbm, ⟨60, _⟩ => ⟨S64x1, .f32⟩
  | .hbm, ⟨61, _⟩ => ⟨S64x1, .f32⟩
  | .hbm, ⟨62, _⟩ => ⟨S64x128, .f32⟩
  | .hbm, ⟨63, _⟩ => ⟨S64x128, .f32⟩
  | .hbm, ⟨64, _⟩ => ⟨S_, .i32⟩
  | .hbm, ⟨65, _⟩ => ⟨S64, .i32⟩
  | .hbm, ⟨66, _⟩ => ⟨S64, .i1⟩
  | .hbm, ⟨67, _⟩ => ⟨S_, .i32⟩
  | .hbm, ⟨68, _⟩ => ⟨S64, .i32⟩
  | .hbm, ⟨69, _⟩ => ⟨S64, .i32⟩
  | .hbm, ⟨70, _⟩ => ⟨S64, .i32⟩
  | .hbm, ⟨71, _⟩ => ⟨S_, .i32⟩
  | .hbm, ⟨72, _⟩ => ⟨S64, .i32⟩
  | .hbm, ⟨73, _⟩ => ⟨S64, .i1⟩
  | .hbm, ⟨74, _⟩ => ⟨S_, .i32⟩
  | .hbm, ⟨75, _⟩ => ⟨S64, .i32⟩
  | .hbm, ⟨76, _⟩ => ⟨S64, .i32⟩
  | .hbm, ⟨77, _⟩ => ⟨S64, .i32⟩
  | .hbm, ⟨78, _⟩ => ⟨S64x1, .i32⟩
  | .hbm, ⟨79, _⟩ => ⟨S64x1, .i32⟩
  | .hbm, ⟨80, _⟩ => ⟨S64x2, .i32⟩
  | .hbm, ⟨81, _⟩ => ⟨S64, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .local _ .vmem, ⟨0, _⟩ => ⟨S8x32x128, .f32⟩
  | .local _ .vmem, ⟨1, _⟩ => ⟨S8x32x128, .f32⟩
  | .local _ .vmem, ⟨2, _⟩ => ⟨S1x64x256x128, .f32⟩
  | .local _ .vmem, ⟨3, _⟩ => ⟨S1x64x256x128, .f32⟩
  | .local _ .vmem, ⟨4, _⟩ => ⟨S1x64x256, .i32⟩
  | .local _ .vmem, ⟨5, _⟩ => ⟨S1x64x256, .i32⟩
  | .local _ .vmem, ⟨6, _⟩ => ⟨S1x8x64, .f32⟩
  | .local _ .vmem, ⟨7, _⟩ => ⟨S1x8x64, .f32⟩
  | _, _ => ⟨S64x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_call0_cst_0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_cst_1 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_call1_cst : Ref sig .tc := ⟨.hbm, 49, rfl⟩
abbrev main_call1_v0 : Ref sig .tc := ⟨.hbm, 50, rfl⟩
abbrev main_call1_cst_0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_cst_1 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_v25 : Ref sig .tc := ⟨.hbm, 63, rfl⟩
abbrev main_c_4 : Ref sig .tc := ⟨.hbm, 64, rfl⟩
abbrev main_v26 : Ref sig .tc := ⟨.hbm, 65, rfl⟩
abbrev main_v27 : Ref sig .tc := ⟨.hbm, 66, rfl⟩
abbrev main_c_5 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_c_6 : Ref sig .tc := ⟨.hbm, 71, rfl⟩
abbrev main_v31 : Ref sig .tc := ⟨.hbm, 72, rfl⟩
abbrev main_v32 : Ref sig .tc := ⟨.hbm, 73, rfl⟩
abbrev main_c_7 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_8 : Ref sig .tc := ⟨.hbm, 82, rfl⟩
abbrev main_v40 : Ref sig .tc := ⟨.hbm, 83, rfl⟩
abbrev main_cst_9 : Ref sig .tc := ⟨.hbm, 84, rfl⟩
abbrev main_v41 : Ref sig .tc := ⟨.hbm, 85, rfl⟩
abbrev main_v42 : Ref sig .tc := ⟨.hbm, 86, rfl⟩
abbrev main_cst_10 : Ref sig .tc := ⟨.hbm, 87, rfl⟩
abbrev main_v43 : Ref sig .tc := ⟨.hbm, 88, rfl⟩
abbrev main_v44 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x64x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S8x32x128_S8x32x128_0_0_0 : ∀ a, (![0, 0, 0] : Fin 3 → Nat) a + S8x32x128.size a ≤ S8x32x128.size a
  h_S8x32x128 : 0 < S8x32x128.numel
  reduces_S8x32x128_S8x32 : S8x32x128.Reduces [2] S8x32
  shapeCasts_S8x32_S8x32x1 : S8x32.ShapeCasts S8x32x1
  broadcasts_S8x32x1_S8x32x128 : S8x32x1.Broadcasts S8x32x128
  shapeCasts_S8x32x128_S256x128 : S8x32x128.ShapeCasts S256x128
  bitsLt_bf16_f32 : FTy.bits .bf16 < FTy.bits .f32
  inb_S1x64x256x128_S1x64x256x128_0_0_0_0 : ∀ a, (![0, 0, 0, 0] : Fin 4 → Nat) a + S1x64x256x128.size a ≤ S1x64x256x128.size a
  h_S1x64x256x128 : 0 < S1x64x256x128.numel
  shapeCasts_S1x64x256x128_S64x256x128 : S1x64x256x128.ShapeCasts S64x256x128
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S64x256x1 : S64x256.ShapeCasts S64x256x1
  broadcasts_S64x256x1_S64x256x128 : S64x256x1.Broadcasts S64x256x128
  reduces_S64x256x128_S64x128 : S64x256x128.Reduces [1] S64x128
  shapeCasts_S64x128_S64x1x128 : S64x128.ShapeCasts S64x1x128
  broadcasts_S64x1x128_S64x256x128 : S64x1x128.Broadcasts S64x256x128
  slices_S64x256x128_o0_0_0_S16x256x128 : S64x256x128.Slices ![0, 0, 0] S16x256x128
  shapeCasts_S16x256x128_S4096x128 : S16x256x128.ShapeCasts S4096x128
  transposes_S4096x128_p1_0_S128x4096 : S4096x128.Transposes [1, 0] S128x4096
  shapeCasts_S256x4096_S256x16x256 : S256x4096.ShapeCasts S256x16x256
  reduces_S256x16x256_S256x16 : S256x16x256.Reduces [2] S256x16
  shapeCasts_S256x16_S8x32x16 : S256x16.ShapeCasts S8x32x16
  reduces_S8x32x16_S8x16 : S8x32x16.Reduces [1] S8x16
  inb_S1x8x64_S1x8x16_0_0_0 : ∀ a, (![0, 0, 0] : Fin 3 → Nat) a + S1x8x16.size a ≤ S1x8x64.size a
  h_S1x8x16 : 0 < S1x8x16.numel
  shapeCasts_S1x8x16_S8x16 : S1x8x16.ShapeCasts S8x16
  shapeCasts_S8x16_S1x8x16 : S8x16.ShapeCasts S1x8x16
  slices_S64x256x128_o16_0_0_S16x256x128 : S64x256x128.Slices ![16, 0, 0] S16x256x128
  inb_S1x8x64_S1x8x16_0_0_16 : ∀ a, (![0, 0, 16] : Fin 3 → Nat) a + S1x8x16.size a ≤ S1x8x64.size a
  slices_S64x256x128_o32_0_0_S16x256x128 : S64x256x128.Slices ![32, 0, 0] S16x256x128
  inb_S1x8x64_S1x8x16_0_0_32 : ∀ a, (![0, 0, 32] : Fin 3 → Nat) a + S1x8x16.size a ≤ S1x8x64.size a
  slices_S64x256x128_o48_0_0_S16x256x128 : S64x256x128.Slices ![48, 0, 0] S16x256x128
  inb_S1x8x64_S1x8x16_0_0_48 : ∀ a, (![0, 0, 48] : Fin 3 → Nat) a + S1x8x16.size a ≤ S1x8x64.size a
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  transposes_S2x64_S64x2_1_0 : S2x64.Transposes [1, 0] S64x2
  reducesTo_S64x2_S64_d1 : S64x2.ReducesTo [1] S64
  h_S_ : 0 < S_.numel
  bcast_S64x1_S64x2_0_1 : S64x1.BroadcastsInDim S64x2 (![0, 1] : Fin 2 → Fin S64x2.rank)
  reducesTo_S64x2_S_d0_1 : S64x2.ReducesTo [0, 1] S_
  transposes_S2x64x64_S64x2x64_1_0_2 : S2x64x64.Transposes [1, 0, 2] S64x2x64
  shapeCasts_S64x2x64_S64x128 : S64x2x64.ShapeCasts S64x128
  reducesTo_S64x128_S64_d1 : S64x128.ReducesTo [1] S64
  bcast_S64x1_S64x128_0_1 : S64x1.BroadcastsInDim S64x128 (![0, 1] : Fin 2 → Fin S64x128.rank)
  reducesTo_S64_S_d0 : S64.ReducesTo [0] S_
  dot_S256x128_S128x4096_S256x4096_1_0_0_1_n_n_wf : DotDims.WF S256x128 S128x4096 S256x4096 [1] [0] [0] [1] [] []
  gather_S2x64x64_S64x2_S2x64_0_12_n_n_12_1_211_wf : GatherDims.WF S2x64x64 S64x2 S2x64 [0] [1, 2] [] [1, 2] [] 1 ![2, 1, 1]
  gather_S64x128_S64x2_S64_n_01_n_n_01_1_11_wf : GatherDims.WF S64x128 S64x2 S64 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x128.size a ≤ S64x32x128.size a
  hwx0_0 : ∀ i : grid0.Coords, EltTy.bits .f32 = 32 ∨ (Rect.block (s := S64x32x128) S8x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256x128.size a ≤ S2x64x256x128.size a
  hwx0_1 : ∀ i : grid0.Coords, EltTy.bits .f32 = 32 ∨ (Rect.block (s := S2x64x256x128) S1x64x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x256.size a ≤ S2x64x256.size a
  hwx0_2 : ∀ i : grid0.Coords, EltTy.bits .i32 = 32 ∨ (Rect.block (s := S2x64x256) S1x64x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x64.size a ≤ S2x64x64.size a
  hwx0_3 : ∀ i : grid0.Coords, EltTy.bits .f32 = 32 ∨ (Rect.block (s := S2x64x64) S1x8x64.size (cc0_transform_3 i) (hinb0_3 i)).WholeWords (EltTy.packing .f32)

variable [Facts₀]

def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def gather_S2x64x64_S64x2_S2x64_0_12_n_n_12_1_211 : GatherDims S2x64x64 S64x2 S2x64 where
  offsetDims := [0]
  collapsedSliceDims := [1, 2]
  operandBatchingDims := []
  startIndicesBatchingDims := []
  startIndexMap := [1, 2]
  indexVectorDim := 1
  sliceSizes := ![2, 1, 1]
  wf := gather_S2x64x64_S64x2_S2x64_0_12_n_n_12_1_211_wf
def gather_S64x128_S64x2_S64_n_01_n_n_01_1_11 : GatherDims S64x128 S64x2 S64 where
  offsetDims := []
  collapsedSliceDims := [0, 1]
  operandBatchingDims := []
  startIndicesBatchingDims := []
  startIndexMap := [0, 1]
  indexVectorDim := 1
  sliceSizes := ![1, 1]
  wf := gather_S64x128_S64x2_S64_n_01_n_n_01_1_11_wf

abbrev win0_0 : Pipeline.Window sig grid0 :=
  Pipeline.Window.ofSpec (Memref.whole main_arg0) S8x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x32x128 : Shape := ⟨3, ![64, 32, 128]⟩
abbrev S2x64x256x128 : Shape := ⟨4, ![2, 64, 256, 128]⟩
abbrev S2x64x256 : Shape := ⟨3, ![2, 64, 256]⟩
abbrev S64x2 : Shape := ⟨2, ![64, 2]⟩
abbrev S_ : Shape := ⟨0, ![]⟩
abbrev S64x32 : Shape := ⟨2, ![64, 32]⟩
abbrev S64x32x1 : Shape := ⟨3, ![64, 32, 1]⟩
abbrev S2x64x256x1 : Shape := ⟨4, ![2, 64, 256, 1]⟩
abbrev S2x64x128 : Shape := ⟨3, ![2, 64, 128]⟩
abbrev S2x64x1x128 : Shape := ⟨4, ![2, 64, 1, 128]⟩
abbrev S2x64x256x64x32 : Shape := ⟨5, ![2, 64, 256, 64, 32]⟩
abbrev S2x64x64x32x256 : Shape := ⟨5, ![2, 64, 64, 32, 256]⟩
abbrev S2x64x64x32 : Shape := ⟨4, ![2, 64, 64, 32]⟩
abbrev S2x64x64 : Shape := ⟨3, ![2, 64, 64]⟩
abbrev S64 : Shape := ⟨1, ![64]⟩
abbrev S64x1 : Shape := ⟨2, ![64, 1]⟩
abbrev S2x64 : Shape := ⟨2, ![2, 64]⟩
abbrev S64x2x64 : Shape := ⟨3, ![64, 2, 64]⟩
abbrev S64x128 : Shape := ⟨2, ![64, 128]⟩

abbrev nBuf : Space → Nat
  | .hbm => 119
  | .vmem => 0
  | .smem => 0
  | _ => 0

abbrev bufTy : (tb : Table) → Fin (tcTables nBuf tb) → BufTy
  | .hbm, ⟨0, _⟩ => ⟨S64x32x128, .f32⟩
  | .hbm, ⟨1, _⟩ => ⟨S2x64x256x128, .f32⟩
  | .hbm, ⟨2, _⟩ => ⟨S2x64x256, .i32⟩
  | .hbm, ⟨3, _⟩ => ⟨S64x2, .f32⟩
  | .hbm, ⟨4, _⟩ => ⟨S64x32x128, .f32⟩
  | .hbm, ⟨5, _⟩ => ⟨S_, .f32⟩
  | .hbm, ⟨6, _⟩ => ⟨S64x32, .f32⟩
  | .hbm, ⟨7, _⟩ => ⟨S64x32x1, .f32⟩
  | .hbm, ⟨8, _⟩ => ⟨S64x32x1, .f32⟩
  | .hbm, ⟨9, _⟩ => ⟨S_, .f32⟩
  | .hbm, ⟨10, _⟩ => ⟨S64x32x1, .f32⟩
  | .hbm, ⟨11, _⟩ => ⟨S64x32x1, .f32⟩
  | .hbm, ⟨12, _⟩ => ⟨S64x32x128, .f32⟩
  | .hbm, ⟨13, _⟩ => ⟨S64x32x128, .f32⟩
  | .hbm, ⟨14, _⟩ => ⟨S2x64x256x1, .i32⟩
  | .hbm, ⟨15, _⟩ => ⟨S2x64x256x1, .f32⟩
  | .hbm, ⟨16, _⟩ => ⟨S2x64x256x128, .f32⟩
  | .hbm, ⟨17, _⟩ => ⟨S2x64x256x128, .f32⟩
  | .hbm, ⟨18, _⟩ => ⟨S2x64x256x128, .f32⟩
  | .hbm, ⟨19, _⟩ => ⟨S_, .f32⟩
  | .hbm, ⟨20, _⟩ => ⟨S2x64x128, .f32⟩
  | .hbm, ⟨21, _⟩ => ⟨S2x64x1x128, .f32⟩
  | .hbm, ⟨22, _⟩ => ⟨S2x64x1x128, .f32⟩
  | .hbm, ⟨23, _⟩ => ⟨S_, .f32⟩
  | .hbm, ⟨24, _⟩ => ⟨S2x64x1x128, .f32⟩
  | .hbm, ⟨25, _⟩ => ⟨S2x64x1x128, .f32⟩
  | .hbm, ⟨26, _⟩ => ⟨S2x64x256x128, .f32⟩
  | .hbm, ⟨27, _⟩ => ⟨S2x64x256x128, .f32⟩
  | .hbm, ⟨28, _⟩ => ⟨S2x64x256x64x32, .f32⟩
  | .hbm, ⟨29, _⟩ => ⟨S2x64x64x32x256, .f32⟩
  | .hbm, ⟨30, _⟩ => ⟨S_, .f32⟩
  | .hbm, ⟨31, _⟩ => ⟨S2x64x64x32, .f32⟩
  | .hbm, ⟨32, _⟩ => ⟨S_, .f32⟩
  | .hbm, ⟨33, _⟩ => ⟨S2x64x64, .f32⟩
  | .hbm, ⟨34, _⟩ => ⟨S64, .i32⟩
  | .hbm, ⟨35, _⟩ => ⟨S_, .i32⟩
  | .hbm, ⟨36, _⟩ => ⟨S64, .i32⟩
  | .hbm, ⟨37, _⟩ => ⟨S64, .i1⟩
  | .hbm, ⟨38, _⟩ => ⟨S_, .i32⟩
  | .hbm, ⟨39, _⟩ => ⟨S64, .i32⟩
  | .hbm, ⟨40, _⟩ => ⟨S64, .i32⟩
  | .hbm, ⟨41, _⟩ => ⟨S64, .i32⟩
  | .hbm, ⟨42, _⟩ => ⟨S_, .i32⟩
  | .hbm, ⟨43, _⟩ => ⟨S64, .i32⟩
  | .hbm, ⟨44, _⟩ => ⟨S64, .i1⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S64, .i32⟩
  | .hbm, ⟨49, _⟩ => ⟨S64x1, .i32⟩
  | .hbm, ⟨50, _⟩ => ⟨S64x1, .i32⟩
  | .hbm, ⟨51, _⟩ => ⟨S64x2, .i32⟩
  | .hbm, ⟨52, _⟩ => ⟨S2x64, .f32⟩
  | .hbm, ⟨53, _⟩ => ⟨S64x2, .f32⟩
  | .hbm, ⟨54, _⟩ => ⟨S_, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S64x1, .f32⟩
  | .hbm, ⟨60, _⟩ => ⟨S64x2, .f32⟩
  | .hbm, ⟨61, _⟩ => ⟨S64x2, .f32⟩
  | .hbm, ⟨62, _⟩ => ⟨S64x2, .f32⟩
  | .hbm, ⟨63, _⟩ => ⟨S_, .f32⟩
  | .hbm, ⟨64, _⟩ => ⟨S64, .f32⟩
  | .hbm, ⟨65, _⟩ => ⟨S64x1, .f32⟩
  | .hbm, ⟨66, _⟩ => ⟨S64x1, .f32⟩
  | .hbm, ⟨67, _⟩ => ⟨S64x2, .f32⟩
  | .hbm, ⟨68, _⟩ => ⟨S64x2, .f32⟩
  | .hbm, ⟨69, _⟩ => ⟨S64x2, .f32⟩
  | .hbm, ⟨70, _⟩ => ⟨S64x2, .f32⟩
  | .hbm, ⟨71, _⟩ => ⟨S64x2, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S64x2x64, .f32⟩
  | .hbm, ⟨77, _⟩ => ⟨S64x128, .f32⟩
  | .hbm, ⟨78, _⟩ => ⟨S_, .f32⟩
  | .hbm, ⟨79, _⟩ => ⟨S64, .f32⟩
  | .hbm, ⟨80, _⟩ => ⟨S_, .f32⟩
  | .hbm, ⟨81, _⟩ => ⟨S64, .f32⟩
  | .hbm, ⟨82, _⟩ => ⟨S64, .f32⟩
  | .hbm, ⟨83, _⟩ => ⟨S64x1, .f32⟩
  | .hbm, ⟨84, _⟩ => ⟨S64x128, .f32⟩
  | .hbm, ⟨85, _⟩ => ⟨S64x128, .f32⟩
  | .hbm, ⟨86, _⟩ => ⟨S64x128, .f32⟩
  | .hbm, ⟨87, _⟩ => ⟨S_, .f32⟩
  | .hbm, ⟨88, _⟩ => ⟨S64, .f32⟩
  | .hbm, ⟨89, _⟩ => ⟨S64x1, .f32⟩
  | .hbm, ⟨90, _⟩ => ⟨S64x1, .f32⟩
  | .hbm, ⟨91, _⟩ => ⟨S64x128, .f32⟩
  | .hbm, ⟨92, _⟩ => ⟨S64x128, .f32⟩
  | .hbm, ⟨93, _⟩ => ⟨S_, .i32⟩
  | .hbm, ⟨94, _⟩ => ⟨S64, .i32⟩
  | .hbm, ⟨95, _⟩ => ⟨S64, .i1⟩
  | .hbm, ⟨96, _⟩ => ⟨S_, .i32⟩
  | .hbm, ⟨97, _⟩ => ⟨S64, .i32⟩
  | .hbm, ⟨98, _⟩ => ⟨S64, .i32⟩
  | .hbm, ⟨99, _⟩ => ⟨S64, .i32⟩
  | .hbm, ⟨100, _⟩ => ⟨S_, .i32⟩
  | .hbm, ⟨101, _⟩ => ⟨S64, .i32⟩
  | .hbm, ⟨102, _⟩ => ⟨S64, .i1⟩
  | .hbm, ⟨103, _⟩ => ⟨S_, .i32⟩
  | .hbm, ⟨104, _⟩ => ⟨S64, .i32⟩
  | .hbm, ⟨105, _⟩ => ⟨S64, .i32⟩
  | .hbm, ⟨106, _⟩ => ⟨S64, .i32⟩
  | .hbm, ⟨107, _⟩ => ⟨S64x1, .i32⟩
  | .hbm, ⟨108, _⟩ => ⟨S64x1, .i32⟩
  | .hbm, ⟨109, _⟩ => ⟨S64x2, .i32⟩
  | .hbm, ⟨110, _⟩ => ⟨S64, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S64x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call2_cst : Ref sig .tc := ⟨.hbm, 54, rfl⟩
abbrev main_call2_v0 : Ref sig .tc := ⟨.hbm, 55, rfl⟩
abbrev main_call2_cst_0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_cst_1 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_6 : Ref sig .tc := ⟨.hbm, 72, rfl⟩
abbrev main_v38 : Ref sig .tc := ⟨.hbm, 73, rfl⟩
abbrev main_cst_7 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_call3_cst : Ref sig .tc := ⟨.hbm, 78, rfl⟩
abbrev main_call3_v0 : Ref sig .tc := ⟨.hbm, 79, rfl⟩
abbrev main_call3_cst_0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_cst_1 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_v42 : Ref sig .tc := ⟨.hbm, 92, rfl⟩
abbrev main_c_8 : Ref sig .tc := ⟨.hbm, 93, rfl⟩
abbrev main_v43 : Ref sig .tc := ⟨.hbm, 94, rfl⟩
abbrev main_v44 : Ref sig .tc := ⟨.hbm, 95, rfl⟩
abbrev main_c_9 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_c_10 : Ref sig .tc := ⟨.hbm, 100, rfl⟩
abbrev main_v48 : Ref sig .tc := ⟨.hbm, 101, rfl⟩
abbrev main_v49 : Ref sig .tc := ⟨.hbm, 102, rfl⟩
abbrev main_c_11 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_cst_12 : Ref sig .tc := ⟨.hbm, 111, rfl⟩
abbrev main_v57 : Ref sig .tc := ⟨.hbm, 112, rfl⟩
abbrev main_cst_13 : Ref sig .tc := ⟨.hbm, 113, rfl⟩
abbrev main_v58 : Ref sig .tc := ⟨.hbm, 114, rfl⟩
abbrev main_v59 : Ref sig .tc := ⟨.hbm, 115, rfl⟩
abbrev main_cst_14 : Ref sig .tc := ⟨.hbm, 116, rfl⟩
abbrev main_v60 : Ref sig .tc := ⟨.hbm, 117, rfl⟩
abbrev main_v61 : Ref sig .tc := ⟨.hbm, 118, rfl⟩

abbrev nD : Nat := 1
abbrev τ : Topo := Topo.v7x

variable {F : FTy → Type} [FloatOps F]

class Facts₀ : Prop where
  reducesTo_S64x32x128_S64x32_d2 : S64x32x128.ReducesTo [2] S64x32
  h_S_ : 0 < S_.numel
  bcast_S64x32_S64x32x1_0_1 : S64x32.BroadcastsInDim S64x32x1 (![0, 1] : Fin 2 → Fin S64x32x1.rank)
  bcast_S_S64x32x1 : S_.BroadcastsInDim S64x32x1 (![] : Fin 0 → Fin S64x32x1.rank)
  bcast_S64x32x1_S64x32x128_0_1_2 : S64x32x1.BroadcastsInDim S64x32x128 (![0, 1, 2] : Fin 3 → Fin S64x32x128.rank)
  bcast_S2x64x256_S2x64x256x1_0_1_2 : S2x64x256.BroadcastsInDim S2x64x256x1 (![0, 1, 2] : Fin 3 → Fin S2x64x256x1.rank)
  bcast_S2x64x256x1_S2x64x256x128_0_1_2_3 : S2x64x256x1.BroadcastsInDim S2x64x256x128 (![0, 1, 2, 3] : Fin 4 → Fin S2x64x256x128.rank)
  reducesTo_S2x64x256x128_S2x64x128_d2 : S2x64x256x128.ReducesTo [2] S2x64x128
  bcast_S2x64x128_S2x64x1x128_0_1_3 : S2x64x128.BroadcastsInDim S2x64x1x128 (![0, 1, 3] : Fin 3 → Fin S2x64x1x128.rank)
  bcast_S_S2x64x1x128 : S_.BroadcastsInDim S2x64x1x128 (![] : Fin 0 → Fin S2x64x1x128.rank)
  bcast_S2x64x1x128_S2x64x256x128_0_1_2_3 : S2x64x1x128.BroadcastsInDim S2x64x256x128 (![0, 1, 2, 3] : Fin 4 → Fin S2x64x256x128.rank)
  transposes_S2x64x256x64x32_S2x64x64x32x256_0_3_1_4_2 : S2x64x256x64x32.Transposes [0, 3, 1, 4, 2] S2x64x64x32x256
  reducesTo_S2x64x64x32x256_S2x64x64x32_d4 : S2x64x64x32x256.ReducesTo [4] S2x64x64x32
  reducesTo_S2x64x64x32_S2x64x64_d3 : S2x64x64x32.ReducesTo [3] S2x64x64
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  transposes_S2x64_S64x2_1_0 : S2x64.Transposes [1, 0] S64x2
  reducesTo_S64x2_S64_d1 : S64x2.ReducesTo [1] S64
  bcast_S64x1_S64x2_0_1 : S64x1.BroadcastsInDim S64x2 (![0, 1] : Fin 2 → Fin S64x2.rank)
  reducesTo_S64x2_S_d0_1 : S64x2.ReducesTo [0, 1] S_
  transposes_S2x64x64_S64x2x64_1_0_2 : S2x64x64.Transposes [1, 0, 2] S64x2x64
  shapeCasts_S64x2x64_S64x128 : S64x2x64.ShapeCasts S64x128
  reducesTo_S64x128_S64_d1 : S64x128.ReducesTo [1] S64
  bcast_S64x1_S64x128_0_1 : S64x1.BroadcastsInDim S64x128 (![0, 1] : Fin 2 → Fin S64x128.rank)
  reducesTo_S64_S_d0 : S64.ReducesTo [0] S_
  dot_S2x64x256x128_S64x32x128_S2x64x256x64x32_3_2_012_01_n_n_wf : DotDims.WF S2x64x256x128 S64x32x128 S2x64x256x64x32 [3] [2] [0, 1, 2] [0, 1] [] []
  gather_S2x64x64_S64x2_S2x64_0_12_n_n_12_1_211_wf : GatherDims.WF S2x64x64 S64x2 S2x64 [0] [1, 2] [] [1, 2] [] 1 ![2, 1, 1]
  gather_S64x128_S64x2_S64_n_01_n_n_01_1_11_wf : GatherDims.WF S64x128 S64x2 S64 [] [0, 1] [] [0, 1] [] 1 ![1, 1]

variable [Facts₀]

def dot_S2x64x256x128_S64x32x128_S2x64x256x64x32_3_2_012_01_n_n : DotDims S2x64x256x128 S64x32x128 S2x64x256x64x32 where
  lhsContracting := [3]
  rhsContracting := [2]
  lhsNonContracting := [0, 1, 2]
  rhsNonContracting := [0, 1]
  lhsBatch := []
  rhsBatch := []
  wf := dot_S2x64x256x128_S64x32x128_S2x64x256x64x32_3_2_012_01_n_n_wf
def gather_S2x64x64_S64x2_S2x64_0_12_n_n_12_1_211 : GatherDims S2x64x64 S64x2 S2x64 where
  offsetDims := [0]
  collapsedSliceDims := [1, 2]
  operandBatchingDims := []
  startIndicesBatchingDims := []
  startIndexMap := [1, 2]
  indexVectorDim := 1
  sliceSizes := ![2, 1, 1]
  wf := gather_S2x64x64_S64x2_S2x64_0_12_n_n_12_1_211_wf
def gather_S64x128_S64x2_S64_n_01_n_n_01_1_11 : GatherDims S64x128 S64x2 S64 where
  offsetDims := []
  collapsedSliceDims := [0, 1]
  operandBatchingDims := []
  startIndicesBatchingDims := []
  startIndexMap := [0, 1]
  indexVectorDim := 1
  sliceSizes := ![1, 1]
  wf := gather_S64x128_S64x2_S64_n_01_n_n_01_1_11_wf

class Facts : Prop extends Facts₀ where

variable [Facts]
-- ==== Proof.RegionK.lean ====
/-
  The run of `Kernel`'s @main: one pipelined region over a 2 × 8 grid, then eighty-five host operations in five
  stretches. At grid point (n, j) the body reads three blocks — rows 8j … 8j+7 of the queries, document batch n whole,
  its mask whole — and stores an 8 × 64 block of scores in four column pieces of width 16; nothing else is touched.
  Here: what each point leaves in the output window's staging buffer as a function of the three input blocks
  (`out3`), the body's triple, the proof data of the pipeline, the run of @main to a state where every array of the
  pipeline is named and every other buffer is what the later host operations compute, and from it the frame:
  the four argument arrays end as they began (no host operation writes one; the region writes only its result).
  Everything is stated at any float instance.
-/
import proofs.«109320_j15152644621119_1_alg».proof.Proof.Gen.Kernel.Launch
import proofs.«109320_j15152644621119_1_alg».proof.Proof.Gen.Kernel.Skeleton
import proofs.«109320_j15152644621119_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The five stretches of host operations after the region, in order. -/
abbrev tailOps : List (List (HloOp τ sig (Elt F))) := [hostOps1, hostOps1_1, hostOps1_2, hostOps1_3, hostOps1_4]

/-- The buffers' contents when the region is entered: the launch contents (no host operation comes before it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the region continued by the five stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) (fun c => by rw [main_chain c]; rfl)

/-- Every operation after the region touches unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- No operation of the flattened tail writes the buffer `b`, when `b` is none of the eighty-five result buffers. -/
theorem tail_not_writes (b : Ref sig .tc)
    (hb : b = main_arg0 ∨ b = main_arg1 ∨ b = main_arg2 ∨ b = main_arg3 ∨ b = main_v0) :
    ∀ op ∈ (tailOps (F := F)).flatten, Proc.devRef (τ := τ) .tc b ∉ op.writes := by
  refine List.forall_iff_forall_mem.mp ?_
  simp only [tailOps, hostOps1, hostOps1_1, hostOps1_2, hostOps1_3, hostOps1_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl
  all_goals
    repeat' apply And.intro
    all_goals exact StableHlo.devRef_ne_of_ne (by decide)

/-- And none writes an array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  have hmem : op ∈ (tailOps (F := F)).flatten := List.mem_flatten.mpr ⟨ops, hops, hop⟩
  have : Pipeline.arrRef spec0 w = main_arg0 ∨ Pipeline.arrRef spec0 w = main_arg1 ∨ Pipeline.arrRef spec0 w = main_arg2
      ∨ Pipeline.arrRef spec0 w = main_arg3 ∨ Pipeline.arrRef spec0 w = main_v0 := by
    fin_cases w
    · exact .inl rfl
    · exact .inr (.inl rfl)
    · exact .inr (.inr (.inl rfl))
    · exact .inr (.inr (.inr (.inr rfl)))
  exact tail_not_writes _ this op hmem

/-- An argument array that no window stages ends, after the tail, as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (tail_not_writes main_arg3 (.inr (.inr (.inr (.inl rfl))))),
    Pipeline.withArrays_of_ne _ c (V0 m c) _ main_arg3 (by exact (by decide : ∀ w, Pipeline.arrRef spec0 w ≠ main_arg3))]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output window's buffer -/

abbrev rq : Rect S8x32x128 := Rect.unit (s := S8x32x128) ![0, 0, 0] S8x32x128.size Facts₀.inb_S8x32x128_S8x32x128_0_0_0
abbrev rd : Rect S1x64x256x128 := Rect.unit (s := S1x64x256x128) ![0, 0, 0, 0] S1x64x256x128.size Facts₀.inb_S1x64x256x128_S1x64x256x128_0_0_0_0
abbrev rm : Rect S1x64x256 := Rect.unit (s := S1x64x256) ![0, 0, 0] S1x64x256.size Facts₀.inb_S1x64x256_S1x64x256_0_0_0
abbrev ro0 : Rect S1x8x64 := Rect.unit (s := S1x8x64) ![0, 0, 0] S1x8x16.size Facts₀.inb_S1x8x64_S1x8x16_0_0_0
abbrev ro16 : Rect S1x8x64 := Rect.unit (s := S1x8x64) ![0, 0, 16] S1x8x16.size Facts₀.inb_S1x8x64_S1x8x16_0_0_16
abbrev ro32 : Rect S1x8x64 := Rect.unit (s := S1x8x64) ![0, 0, 32] S1x8x16.size Facts₀.inb_S1x8x64_S1x8x16_0_0_32
abbrev ro48 : Rect S1x8x64 := Rect.unit (s := S1x8x64) ![0, 0, 48] S1x8x16.size Facts₀.inb_S1x8x64_S1x8x16_0_0_48

/-- The output window's staging buffer after the body, from the three input blocks: its four column pieces, last
    stored first. Piece k holds the scores of the 8 query rows against documents 16k … 16k+15. -/
def out3 (x0 : Vec F S8x32x128 .f32) (x1 : Vec F S1x64x256x128 .f32) (x2 : Vec F S1x64x256 .i32) : Vec F S1x8x64 .f32 :=
  View.canon [⟨ro48, k0_pay7 (k0_pay1 (View.ld x0 rq)) (k0_pay2 (View.ld x1 rd) (View.ld x2 rm))⟩,
    ⟨ro32, k0_pay6 (k0_pay1 (View.ld x0 rq)) (k0_pay2 (View.ld x1 rd) (View.ld x2 rm))⟩,
    ⟨ro16, k0_pay5 (k0_pay1 (View.ld x0 rq)) (k0_pay2 (View.ld x1 rd) (View.ld x2 rm))⟩,
    ⟨ro0, k0_pay4 (k0_pay3 (View.ld x0 rq) (View.ld x1 rd) (View.ld x2 rm))⟩]

/-- The four pieces tile the 8 × 64 block. -/
theorem cover3 (p0 p1 p2 p3 : Vec F S1x8x16 .f32) (y : S1x8x64.Idx) :
    ∃ pc ∈ ([⟨ro48, p3⟩, ⟨ro32, p2⟩, ⟨ro16, p1⟩, ⟨ro0, p0⟩] : List (View.Piece (Elt F) S1x8x64 .f32)), y ∈ pc.1.set :=
  View.cover_of_tiled [⟨ro48, p3⟩, ⟨ro32, p2⟩, ⟨ro16, p1⟩, ⟨ro0, p0⟩] S1x8x16.size (by rfl) y

/-! ## The body's triple -/

set_option maxHeartbeats 4000000 in
theorem sound_kernel (c : Dev nD) (E : Set ℕ) (i : grid0.Coords)
    (arg2 : Memref sig .tc .vmem S8x32x128 .f32) (harg2 : arg2.IsWhole) (arg3 : Memref sig .tc .vmem S1x64x256x128 .f32) (harg3 : arg3.IsWhole)
    (arg4 : Memref sig .tc .vmem S1x64x256 .i32) (harg4 : arg4.IsWhole) (arg5 : Memref sig .tc .vmem S1x8x64 .f32) (harg5 : arg5.IsWhole)
    (x0 : Vec F S8x32x128 .f32) (x1 : Vec F S1x64x256x128 .f32) (x2 : Vec F S1x64x256 .i32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out3 x0 x1 x2)) -∗ K ⟨⟩))
      ⊢ wp frame (wpE (defs₀ (F := F)) Variants.none c none) E (cc0__maxsim_kernel i arg2 harg2 arg3 harg3 arg4 harg4 arg5 harg5) K := by
  simp only [cc0__maxsim_kernel_eq_skeleton]; unfold cc0__maxsim_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _ _ _ _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end every array of the pipeline holds what the proof data
    computes for it and every other unscoped buffer what the five stretches of host operations leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).2 main_arg3 (Pipeline.mem_restRefs_of main_arg3 (by decide) (by decide))).trans (W_main_arg3 m (dats m) c)⟩) (run_main m ρ)

end Cert.Kernel.Region

end
-- ==== Proof.RegionKI.lean ====
/-
  The run of `KernelIdeal`'s @main: one pipelined region over a 2 × 8 grid, then eighty-five host operations in five
  stretches. At grid point (n, j) the body reads three blocks — rows 8j … 8j+7 of the queries, document batch n whole,
  its mask whole — and stores an 8 × 64 block of scores in four column pieces of width 16; nothing else is touched.
  Here: what each point leaves in the output window's staging buffer as a function of the three input blocks
  (`out3`), the body's triple, the proof data of the pipeline, the run of @main to a state where every array of the
  pipeline is named and every other buffer is what the later host operations compute, and from it the frame:
  the four argument arrays end as they began (no host operation writes one; the region writes only its result).
  Everything is stated at any float instance.
-/
import proofs.«109320_j15152644621119_1_alg».proof.Proof.Gen.KernelIdeal.Launch
import proofs.«109320_j15152644621119_1_alg».proof.Proof.Gen.KernelIdeal.Skeleton
import proofs.«109320_j15152644621119_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The five stretches of host operations after the region, in order. -/
abbrev tailOps : List (List (HloOp τ sig (Elt F))) := [hostOps1, hostOps1_1, hostOps1_2, hostOps1_3, hostOps1_4]

/-- The buffers' contents when the region is entered: the launch contents (no host operation comes before it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the region continued by the five stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) (fun c => by rw [main_chain c]; rfl)

/-- Every operation after the region touches unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- No operation of the flattened tail writes the buffer `b`, when `b` is none of the eighty-five result buffers. -/
theorem tail_not_writes (b : Ref sig .tc)
    (hb : b = main_arg0 ∨ b = main_arg1 ∨ b = main_arg2 ∨ b = main_arg3 ∨ b = main_v0) :
    ∀ op ∈ (tailOps (F := F)).flatten, Proc.devRef (τ := τ) .tc b ∉ op.writes := by
  refine List.forall_iff_forall_mem.mp ?_
  simp only [tailOps, hostOps1, hostOps1_1, hostOps1_2, hostOps1_3, hostOps1_4, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  rcases hb with rfl | rfl | rfl | rfl | rfl
  all_goals
    repeat' apply And.intro
    all_goals exact StableHlo.devRef_ne_of_ne (by decide)

/-- And none writes an array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  have hmem : op ∈ (tailOps (F := F)).flatten := List.mem_flatten.mpr ⟨ops, hops, hop⟩
  have : Pipeline.arrRef spec0 w = main_arg0 ∨ Pipeline.arrRef spec0 w = main_arg1 ∨ Pipeline.arrRef spec0 w = main_arg2
      ∨ Pipeline.arrRef spec0 w = main_arg3 ∨ Pipeline.arrRef spec0 w = main_v0 := by
    fin_cases w
    · exact .inl rfl
    · exact .inr (.inl rfl)
    · exact .inr (.inr (.inl rfl))
    · exact .inr (.inr (.inr (.inr rfl)))
  exact tail_not_writes _ this op hmem

/-- An argument array that no window stages ends, after the tail, as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (tail_not_writes main_arg3 (.inr (.inr (.inr (.inl rfl))))),
    Pipeline.withArrays_of_ne _ c (V0 m c) _ main_arg3 (by exact (by decide : ∀ w, Pipeline.arrRef spec0 w ≠ main_arg3))]
  rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output window's buffer -/

abbrev rq : Rect S8x32x128 := Rect.unit (s := S8x32x128) ![0, 0, 0] S8x32x128.size Facts₀.inb_S8x32x128_S8x32x128_0_0_0
abbrev rd : Rect S1x64x256x128 := Rect.unit (s := S1x64x256x128) ![0, 0, 0, 0] S1x64x256x128.size Facts₀.inb_S1x64x256x128_S1x64x256x128_0_0_0_0
abbrev rm : Rect S1x64x256 := Rect.unit (s := S1x64x256) ![0, 0, 0] S1x64x256.size Facts₀.inb_S1x64x256_S1x64x256_0_0_0
abbrev ro0 : Rect S1x8x64 := Rect.unit (s := S1x8x64) ![0, 0, 0] S1x8x16.size Facts₀.inb_S1x8x64_S1x8x16_0_0_0
abbrev ro16 : Rect S1x8x64 := Rect.unit (s := S1x8x64) ![0, 0, 16] S1x8x16.size Facts₀.inb_S1x8x64_S1x8x16_0_0_16
abbrev ro32 : Rect S1x8x64 := Rect.unit (s := S1x8x64) ![0, 0, 32] S1x8x16.size Facts₀.inb_S1x8x64_S1x8x16_0_0_32
abbrev ro48 : Rect S1x8x64 := Rect.unit (s := S1x8x64) ![0, 0, 48] S1x8x16.size Facts₀.inb_S1x8x64_S1x8x16_0_0_48

/-- The output window's staging buffer after the body, from the three input blocks: its four column pieces, last
    stored first. Piece k holds the scores of the 8 query rows against documents 16k … 16k+15. -/
def out3 (x0 : Vec F S8x32x128 .f32) (x1 : Vec F S1x64x256x128 .f32) (x2 : Vec F S1x64x256 .i32) : Vec F S1x8x64 .f32 :=
  View.canon [⟨ro48, k0_pay7 (k0_pay1 (View.ld x0 rq)) (k0_pay2 (View.ld x1 rd) (View.ld x2 rm))⟩,
    ⟨ro32, k0_pay6 (k0_pay1 (View.ld x0 rq)) (k0_pay2 (View.ld x1 rd) (View.ld x2 rm))⟩,
    ⟨ro16, k0_pay5 (k0_pay1 (View.ld x0 rq)) (k0_pay2 (View.ld x1 rd) (View.ld x2 rm))⟩,
    ⟨ro0, k0_pay4 (k0_pay3 (View.ld x0 rq) (View.ld x1 rd) (View.ld x2 rm))⟩]

/-- The four pieces tile the 8 × 64 block. -/
theorem cover3 (p0 p1 p2 p3 : Vec F S1x8x16 .f32) (y : S1x8x64.Idx) :
    ∃ pc ∈ ([⟨ro48, p3⟩, ⟨ro32, p2⟩, ⟨ro16, p1⟩, ⟨ro0, p0⟩] : List (View.Piece (Elt F) S1x8x64 .f32)), y ∈ pc.1.set :=
  View.cover_of_tiled [⟨ro48, p3⟩, ⟨ro32, p2⟩, ⟨ro16, p1⟩, ⟨ro0, p0⟩] S1x8x16.size (by rfl) y

/-! ## The body's triple -/

set_option maxHeartbeats 4000000 in
theorem sound_kernel (c : Dev nD) (E : Set ℕ) (i : grid0.Coords)
    (arg2 : Memref sig .tc .vmem S8x32x128 .f32) (harg2 : arg2.IsWhole) (arg3 : Memref sig .tc .vmem S1x64x256x128 .f32) (harg3 : arg3.IsWhole)
    (arg4 : Memref sig .tc .vmem S1x64x256 .i32) (harg4 : arg4.IsWhole) (arg5 : Memref sig .tc .vmem S1x8x64 .f32) (harg5 : arg5.IsWhole)
    (x0 : Vec F S8x32x128 .f32) (x1 : Vec F S1x64x256x128 .f32) (x2 : Vec F S1x64x256 .i32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out3 x0 x1 x2)) -∗ K ⟨⟩))
      ⊢ wp frame (wpE (defs₀ (F := F)) Variants.none c none) E (cc0__maxsim_kernel i arg2 harg2 arg3 harg3 arg4 harg4 arg5 harg5) K := by
  simp only [cc0__maxsim_kernel_eq_skeleton]; unfold cc0__maxsim_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _ _ _ _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end every array of the pipeline holds what the proof data
    computes for it and every other unscoped buffer what the five stretches of host operations leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).2 main_arg3 (Pipeline.mem_restRefs_of main_arg3 (by decide) (by decide))).trans (W_main_arg3 m (dats m) c)⟩) (run_main m ρ)

end Cert.KernelIdeal.Region

end
-- ==== Proof.TailKI.lean ====
/-
  What the eighty-five host operations after the region compute, as ONE function `tail` of the score array S and the
  label array L (log-probabilities): with idx = 0 … 63,
    scores = S[:, idx, idx]ᵀ                      (64 × 2, the paired scores)
    kl     = Σ exp(L) · (L − log_softmax(scores)) / 64
    pred   = S transposed to (query, batch, document) and flattened to 64 × 128
    ce     = − Σ_i log_softmax(pred)[i, i] / 64
    tail   = kl + ½ · ce.
  log_softmax(x) = (x − max_row x) − log Σ_row exp(x − max_row x), the row maximum started at −∞.
  The index columns are jnp's: idx, with idx + n where idx < 0 (never).
  Then: the buffer the program returns holds `tail` of the region's result array and the label argument.
-/
import proofs.«109320_j15152644621119_1_alg».proof.Proof.RegionKI
import Idealize.ShloMosaic.Lib.StableHlo.Run

set_option maxRecDepth 16384

noncomputable section

namespace Cert.KernelIdeal.Tail

open Cert.KernelIdeal Cert.KernelIdeal.Gen Cert.KernelIdeal.Region
open Cert.KernelIdeal.Facts₀ Cert.KernelIdeal.Facts
open Idealize.ShloMosaic Idealize.ShloMosaic.TcCoe Idealize.SL.Sem Idealize.ShloMosaic.StableHlo

variable {F : FTy → Type} [FloatOps F]

/-- 0 … 63, an entry below zero moved up by `n`. -/
def wrapIdx (n : BitVec 32) : IVec S64 32 :=
  select (cmpi .slt (iotaInDim S64 32 0) (broadcastInDim S64 ![] Facts₀.bcast_S_S64 (constantI S_ 32 0#32)))
    (addi (iotaInDim S64 32 0) (broadcastInDim S64 ![] Facts₀.bcast_S_S64 (constantI S_ 32 n))) (iotaInDim S64 32 0)

/-- The 64 × 2 table of index pairs (i, i). -/
def idxPair (a b : BitVec 32) : IVec S64x2 32 :=
  concatenate S64x2 1 [⟨S64x1, (broadcastInDim S64x1 ![0] Facts₀.bcast_S64_S64x1_0 (wrapIdx a))⟩,
    ⟨S64x1, (broadcastInDim S64x1 ![0] Facts₀.bcast_S64_S64x1_0 (wrapIdx b))⟩] Facts₀.concatenates_S64x1_S64x1_S64x2_d1

/-- log_softmax along the rows of a 64 × 2 array. -/
def logSoftmax2 (x : FVec F S64x2 .f32) : FVec F S64x2 .f32 :=
  subf (subf x (broadcastInDim S64x2 ![0, 1] Facts₀.bcast_S64x1_S64x2_0_1 (broadcastInDim S64x1 ![0] Facts₀.bcast_S64_S64x1_0
      (maximumf (broadcastInDim S64 ![] Facts₀.bcast_S_S64 (constant S_ .f32 0xFF800000#32))
        (Host.reduce FloatOps.maximumf x (constant S_ .f32 0xFF800000#32) Facts₀.reducesTo_S64x2_S64_d1 Facts₀.h_S_)))))
    (broadcastInDim S64x2 ![0, 1] Facts₀.bcast_S64x1_S64x2_0_1 (Host.log (broadcastInDim S64x1 ![0] Facts₀.bcast_S64_S64x1_0
      (Host.reduceAdd (Host.exp (subf x (broadcastInDim S64x2 ![0, 1] Facts₀.bcast_S64x1_S64x2_0_1 (broadcastInDim S64x1 ![0] Facts₀.bcast_S64_S64x1_0
        (maximumf (broadcastInDim S64 ![] Facts₀.bcast_S_S64 (constant S_ .f32 0xFF800000#32))
          (Host.reduce FloatOps.maximumf x (constant S_ .f32 0xFF800000#32) Facts₀.reducesTo_S64x2_S64_d1 Facts₀.h_S_))))))
        (constant S_ .f32 0x00000000#32) Facts₀.reducesTo_S64x2_S64_d1 Facts₀.h_S_))))

/-- log_softmax along the rows of a 64 × 128 array. -/
def logSoftmax128 (x : FVec F S64x128 .f32) : FVec F S64x128 .f32 :=
  subf (subf x (broadcastInDim S64x128 ![0, 1] Facts₀.bcast_S64x1_S64x128_0_1 (broadcastInDim S64x1 ![0] Facts₀.bcast_S64_S64x1_0
      (maximumf (broadcastInDim S64 ![] Facts₀.bcast_S_S64 (constant S_ .f32 0xFF800000#32))
        (Host.reduce FloatOps.maximumf x (constant S_ .f32 0xFF800000#32) Facts₀.reducesTo_S64x128_S64_d1 Facts₀.h_S_)))))
    (broadcastInDim S64x128 ![0, 1] Facts₀.bcast_S64x1_S64x128_0_1 (Host.log (broadcastInDim S64x1 ![0] Facts₀.bcast_S64_S64x1_0
      (Host.reduceAdd (Host.exp (subf x (broadcastInDim S64x128 ![0, 1] Facts₀.bcast_S64x1_S64x128_0_1 (broadcastInDim S64x1 ![0] Facts₀.bcast_S64_S64x1_0
        (maximumf (broadcastInDim S64 ![] Facts₀.bcast_S_S64 (constant S_ .f32 0xFF800000#32))
          (Host.reduce FloatOps.maximumf x (constant S_ .f32 0xFF800000#32) Facts₀.reducesTo_S64x128_S64_d1 Facts₀.h_S_))))))
        (constant S_ .f32 0x00000000#32) Facts₀.reducesTo_S64x128_S64_d1 Facts₀.h_S_))))

/-- The loss from the score array and the labels. -/
def tail (S : FVec F S2x64x64 .f32) (L : FVec F S64x2 .f32) : FVec F S_ .f32 :=
  addf
    (Host.divf (Host.reduceAdd (mulf (Host.exp L) (subf L (logSoftmax2
        (transpose S64x2 [1, 0] (Host.gather gather_S2x64x64_S64x2_S2x64_0_12_n_n_12_1_211 S (idxPair 64#32 64#32)) Facts₀.transposes_S2x64_S64x2_1_0))))
      (constant S_ .f32 0x00000000#32) Facts₀.reducesTo_S64x2_S_d0_1 Facts₀.h_S_) (constant S_ .f32 0x42800000#32))
    (mulf (constant S_ .f32 0x3F000000#32) (Host.negf (Host.divf (Host.reduceAdd
        (Host.gather gather_S64x128_S64x2_S64_n_01_n_n_01_1_11
          (logSoftmax128 (shapeCast _ (transpose S64x2x64 [1, 0, 2] S Facts₀.transposes_S2x64x64_S64x2x64_1_0_2) Facts₀.shapeCasts_S64x2x64_S64x128))
          (idxPair 64#32 128#32))
        (constant S_ .f32 0x00000000#32) Facts₀.reducesTo_S64_S_d0 Facts₀.h_S_) (constant S_ .f32 0x42800000#32))))

variable (m : (ℓ : Loc nD τ sig) → Buf (Elt F) ℓ)

set_option maxHeartbeats 4000000 in
/-- The returned buffer after the five stretches, from any contents `W` the region leaves: `tail` of the result array and
    the label argument there. -/
theorem after_tail (W : Valuation τ sig (Elt F)) :
    StableHlo.after (tailOps (F := F)).flatten W (Proc.devRef .tc main_v44)
      = tail (W (Proc.devRef .tc main_v0)) (W (Proc.devRef .tc main_arg3)) := by
  simp only [tailOps, hostOps1, hostOps1_1, hostOps1_2, hostOps1_3, hostOps1_4, List.flatten_cons, List.flatten_nil, List.append_nil, List.cons_append,
    List.nil_append]
  after_results_simp
  rfl

end Cert.KernelIdeal.Tail

end
-- ==== Proof.Spec.lean ====
/-
  The scores the two programs compute, as one function of the three arrays, entry by entry.
  For document batch n, query row-block bq and document bd:
    G(n, bq, bd) = Σ_l  max_j  Σ_k  q̂(bq, l, k) · d̂(n, bd, j, k)
  where q̂ is the query vector (bq, l, ·) divided by its length (floored at ε), and d̂ is the masked document entry
  D(n, bd, j, k) · mask(n, bd, j) divided by the length of the masked column (n, bd, ·, k) along the sequence axis
  (floored at ε). The maximum over the 256 sequence positions starts from −∞; sums and products are those of the
  extended reals, division is the model's.
-/
import Idealize.ShloMosaic.PureOps.Ideal
import Idealize.ShloMosaic.PureOps.Ideal.Laws
import Idealize.ShloMosaic.Lib.ValueIdx

noncomputable section

namespace Cert.Spec

open Idealize.ShloMosaic

abbrev SQ : Shape := ⟨3, ![64, 32, 128]⟩
abbrev SD : Shape := ⟨4, ![2, 64, 256, 128]⟩
abbrev SM : Shape := ⟨3, ![2, 64, 256]⟩
abbrev SS : Shape := ⟨3, ![2, 64, 64]⟩

/-- The floor under a length: the float 1e-12. -/
def eps : EReal := Ideal.ofBits .f32 0x2B8CBCCC#32
/-- Where a maximum starts: −∞. -/
def negInf : EReal := Ideal.ofBits .f32 0xFF800000#32

/-- A vector entry over the vector's length floored at ε. -/
def unit (x : EReal) (sumSq : EReal) : EReal := Ideal.div x (max (Ideal.sqrt sumSq) eps)

/-- Query (b, l, ·) scaled to unit length. -/
def qn (Q : FVec Ideal SQ .f32) (b : Fin 64) (l : Fin 32) (k : Fin 128) : EReal :=
  unit (Q (ValueIdx.ix3 b l k)) (∑ k' : Fin 128, Q (ValueIdx.ix3 b l k') * Q (ValueIdx.ix3 b l k'))

/-- A document entry times its mask word read as a number. -/
def dm (D : FVec Ideal SD .f32) (M : IVec SM 32) (n : Fin 2) (b : Fin 64) (j : Fin 256) (k : Fin 128) : EReal :=
  D (ValueIdx.ix4 n b j k) * (((M (ValueIdx.ix3 n b j)).toInt : ℝ) : EReal)

/-- The masked document column (n, b, ·, k) scaled to unit length along the sequence axis. -/
def dn (D : FVec Ideal SD .f32) (M : IVec SM 32) (n : Fin 2) (b : Fin 64) (j : Fin 256) (k : Fin 128) : EReal :=
  unit (dm D M n b j k) (∑ j' : Fin 256, dm D M n b j' k * dm D M n b j' k)

/-- The inner product of query vector (bq, l) with document vector (n, bd, j). -/
def sim (Q : FVec Ideal SQ .f32) (D : FVec Ideal SD .f32) (M : IVec SM 32) (n : Fin 2) (bq bd : Fin 64) (l : Fin 32) (j : Fin 256) : EReal :=
  ∑ k : Fin 128, qn Q bq l k * dn D M n bd j k

/-- One score from coordinates. -/
def score (Q : FVec Ideal SQ .f32) (D : FVec Ideal SD .f32) (M : IVec SM 32) (n : Fin 2) (bq bd : Fin 64) : EReal :=
  ∑ l : Fin 32, (Finset.univ : Finset (Fin 256)).fold max negInf (fun j => sim Q D M n bq bd l j)

/-- The score array. -/
def G (Q : FVec Ideal SQ .f32) (D : FVec Ideal SD .f32) (M : IVec SM 32) : FVec Ideal SS .f32 :=
  fun i => score Q D M ⟨(i 0).val, (i 0).isLt⟩ ⟨(i 1).val, (i 1).isLt⟩ ⟨(i 2).val, (i 2).isLt⟩

theorem G_ix3 (Q : FVec Ideal SQ .f32) (D : FVec Ideal SD .f32) (M : IVec SM 32) (n : Fin 2) (bq bd : Fin 64) :
    G Q D M (ValueIdx.ix3 n bq bd) = score Q D M n bq bd := rfl

end Cert.Spec

end
-- ==== Proof.Block.lean ====
/-
  One grid point of the kernel, as arithmetic on its three input blocks: entry (r, b) of the 8 × 64 block the body
  leaves in the output window's buffer is Σ_l max_j Σ_k q̂(r, l, k) · d̂(b, j, k), the unit-length vectors taken within
  the blocks. (The body computes it in four column pieces of sixteen documents; a piece's matrix product has the
  rows (r, l) flattened to 32·r + l and the columns (b', j) flattened to 256·b' + j.)
-/
import proofs.«109320_j15152644621119_1_alg».proof.Proof.RegionKI
import proofs.«109320_j15152644621119_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Block

open Cert.KernelIdeal Cert.KernelIdeal.Gen
open Idealize.ShloMosaic Idealize.ShloMosaic.TcCoe Idealize.ShloMosaic.ValueIdx

/-- Query vector (r, l) of the block, scaled to unit length. -/
def qnB (x0 : Vec Ideal S8x32x128 .f32) (r : Fin 8) (l : Fin 32) (k : Fin 128) : EReal :=
  Cert.Spec.unit (x0 (ix3 r l k)) (∑ k' : Fin 128, x0 (ix3 r l k') * x0 (ix3 r l k'))

/-- A document entry of the block times its mask word read as a number. -/
def dmB (x1 : Vec Ideal S1x64x256x128 .f32) (x2 : Vec Ideal S1x64x256 .i32) (b : Fin 64) (j : Fin 256) (k : Fin 128) : EReal :=
  x1 (ix4 (0 : Fin 1) b j k) * ((((x2 (ix3 (0 : Fin 1) b j) : BitVec 32)).toInt : ℝ) : EReal)

/-- The masked column (b, ·, k) scaled to unit length along the sequence axis. -/
def dnB (x1 : Vec Ideal S1x64x256x128 .f32) (x2 : Vec Ideal S1x64x256 .i32) (b : Fin 64) (j : Fin 256) (k : Fin 128) : EReal :=
  Cert.Spec.unit (dmB x1 x2 b j k) (∑ j' : Fin 256, dmB x1 x2 b j' k * dmB x1 x2 b j' k)

/-- Entry (r, b) of the block of scores. -/
def scoreB (x0 : Vec Ideal S8x32x128 .f32) (x1 : Vec Ideal S1x64x256x128 .f32) (x2 : Vec Ideal S1x64x256 .i32) (r : Fin 8) (b : Fin 64) : EReal :=
  ∑ l : Fin 32, (Finset.univ : Finset (Fin 256)).fold max Cert.Spec.negInf (fun j => ∑ k : Fin 128, qnB x0 r l k * dnB x1 x2 b j k)

/-! ### Reductions, reshapes, the transpose, the cut and the product, each at an index -/

/-- A sum over axis 1 of an 8 × 32 × 16 array, at (r, b'). -/
theorem sum_axis1 (v : FVec Ideal S8x32x16 .f32) (r : Fin 8) (b' : Fin 16) :
    multiReduction (F := Ideal) .add [1] S8x16 v 0x00000000#32 reduces_S8x32x16_S8x16 (.inl rfl) rfl (ix2 r b')
      = ∑ l : Fin 32, v (ix3 r l b') :=
  (Ideal.multiReduction_add_single v _ _ _ _ (ix2 r b')).trans
    (Finset.sum_congr rfl fun l _ => congrArg v (funext fun c => Fin.ext (match c with
      | ⟨0, _⟩ => rfl | ⟨1, _⟩ => rfl | ⟨2, _⟩ => rfl)))

/-- A maximum over axis 2 of a 256 × 16 × 256 array, at (p, b'). -/
theorem max_axis2 (v : FVec Ideal S256x16x256 .f32) (p : Fin 256) (b' : Fin 16) :
    multiReduction (F := Ideal) .maximumf [2] S256x16 v 0xFF800000#32 reduces_S256x16x256_S256x16 (.inl rfl) rfl (ix2 p b')
      = (Finset.univ : Finset (Fin 256)).fold max Cert.Spec.negInf (fun j => v (ix3 p b' j)) :=
  (Ideal.multiReduction_maximumf_single v _ _ _ _ (ix2 p b')).trans
    (congrArg (fun f => (Finset.univ : Finset (Fin 256)).fold max Cert.Spec.negInf f)
      (funext fun j => congrArg v (funext fun c => Fin.ext (match c with
        | ⟨0, _⟩ => rfl | ⟨1, _⟩ => rfl | ⟨2, _⟩ => rfl))))

/-- 256 × 16 read as 8 × 32 × 16: entry (r, l, b') is row 32 r + l. -/
theorem cast_rows (v : FVec Ideal S256x16 .f32) (r : Fin 8) (l : Fin 32) (b' : Fin 16) (p : Fin 256)
    (hp : p.val = 32 * r.val + l.val) :
    shapeCast S8x32x16 v shapeCasts_S256x16_S8x32x16 (ix3 r l b') = v (ix2 p b') :=
  shapeCast_apply v _ (ix3 r l b') (ix2 p b') (by
    rw [Shape.rowMajor_val_two, Shape.rowMajor_val_three]
    show p.val * 16 + b'.val = (r.val * 32 + l.val) * 16 + b'.val
    omega)

/-- 256 × 4096 read as 256 × 16 × 256: entry (p, b', j) is column 256 b' + j. -/
theorem cast_cols (v : FVec Ideal S256x4096 .f32) (p : Fin 256) (b' : Fin 16) (j : Fin 256) (q : Fin 4096)
    (hq : q.val = 256 * b'.val + j.val) :
    shapeCast S256x16x256 v shapeCasts_S256x4096_S256x16x256 (ix3 p b' j) = v (ix2 p q) :=
  shapeCast_apply v _ (ix3 p b' j) (ix2 p q) (by
    rw [Shape.rowMajor_val_two, Shape.rowMajor_val_three]
    show p.val * 4096 + q.val = (p.val * 16 + b'.val) * 256 + j.val
    omega)

/-- 16 × 256 × 128 read as 4096 × 128: row 256 b' + j is (b', j). -/
theorem cast_docs (v : FVec Ideal S16x256x128 .f32) (b' : Fin 16) (j : Fin 256) (k : Fin 128) (q : Fin 4096)
    (hq : q.val = 256 * b'.val + j.val) :
    shapeCast S4096x128 v shapeCasts_S16x256x128_S4096x128 (ix2 q k) = v (ix3 b' j k) :=
  shapeCast_apply v _ (ix2 q k) (ix3 b' j k) (by
    rw [Shape.rowMajor_val_two, Shape.rowMajor_val_three]
    show (b'.val * 256 + j.val) * 128 + k.val = q.val * 128 + k.val
    omega)

/-- 8 × 16 read as 1 × 8 × 16. -/
theorem cast_unit (v : FVec Ideal S8x16 .f32) (r : Fin 8) (b' : Fin 16) :
    shapeCast S1x8x16 v shapeCasts_S8x16_S1x8x16 (ix3 (0 : Fin 1) r b') = v (ix2 r b') :=
  shapeCast_apply v _ (ix3 (0 : Fin 1) r b') (ix2 r b') (by
    rw [Shape.rowMajor_val_two, Shape.rowMajor_val_three]
    show r.val * 16 + b'.val = ((0 : Fin 1).val * 8 + r.val) * 16 + b'.val
    simp)

/-- The transpose of a 4096 × 128 array. -/
theorem transpose_at {φ : FTy} (v : FVec Ideal S4096x128 φ) (k : Fin 128) (q : Fin 4096) :
    transpose S128x4096 [1, 0] v transposes_S4096x128_p1_0_S128x4096 (ix2 k q) = v (ix2 q k) :=
  transpose_apply [1, 0] v _ (ix2 k q) (ix2 q k) (fun b => match b with | ⟨0, _⟩ => rfl | ⟨1, _⟩ => rfl)

/-- Sixteen documents cut out of the sixty-four, from document 16 c on. -/
theorem slice_at (off : Fin 3 → Nat) (hs : S64x256x128.Slices off S16x256x128) (c : Nat)
    (h0 : off 0 = 16 * c) (h1 : off 1 = 0) (h2 : off 2 = 0)
    (v : FVec Ideal S64x256x128 .f32) (b' : Fin 16) (j : Fin 256) (k : Fin 128) (b : Fin 64) (hb : b.val = 16 * c + b'.val) :
    extractStridedSlice S16x256x128 off v hs (ix3 b' j k) = v (ix3 b j k) :=
  extractStridedSlice_apply off v hs (ix3 b' j k) (ix3 b j k) (fun a => match a with
    | ⟨0, _⟩ => by show b.val = off 0 + b'.val; omega
    | ⟨1, _⟩ => by show j.val = off 1 + j.val; omega
    | ⟨2, _⟩ => by show k.val = off 2 + k.val; omega)

theorem lhs_axis0 (i : S256x4096.Idx) (q : dot_S256x128_S128x4096_S256x4096_1_0_0_1_n_n.contr.Idx) :
    (dot_S256x128_S128x4096_S256x4096_1_0_0_1_n_n.lhsIdx i q 0).val = (i 0).val := by
  unfold DotDims.lhsIdx
  rw [dif_neg (show ¬(0 : Fin S256x128.rank) ∈ dot_S256x128_S128x4096_S256x4096_1_0_0_1_n_n.lhsBatch by decide), dif_pos (show (0 : Fin S256x128.rank) ∈ dot_S256x128_S128x4096_S256x4096_1_0_0_1_n_n.lhsNonContracting by decide)]
  rfl
theorem lhs_axis1 (i : S256x4096.Idx) (q : dot_S256x128_S128x4096_S256x4096_1_0_0_1_n_n.contr.Idx) :
    (dot_S256x128_S128x4096_S256x4096_1_0_0_1_n_n.lhsIdx i q 1).val = (q ⟨0, by decide⟩).val :=
  dot_S256x128_S128x4096_S256x4096_1_0_0_1_n_n.lhsIdx_val_of_single rfl i q
theorem rhs_axis0 (i : S256x4096.Idx) (q : dot_S256x128_S128x4096_S256x4096_1_0_0_1_n_n.contr.Idx) :
    (dot_S256x128_S128x4096_S256x4096_1_0_0_1_n_n.rhsIdx i q 0).val = (q ⟨0, by decide⟩).val :=
  dot_S256x128_S128x4096_S256x4096_1_0_0_1_n_n.rhsIdx_val_of_single rfl i q
theorem rhs_axis1 (i : S256x4096.Idx) (q : dot_S256x128_S128x4096_S256x4096_1_0_0_1_n_n.contr.Idx) :
    (dot_S256x128_S128x4096_S256x4096_1_0_0_1_n_n.rhsIdx i q 1).val = (i 1).val := by
  unfold DotDims.rhsIdx
  rw [dif_neg (show ¬(1 : Fin S128x4096.rank) ∈ dot_S256x128_S128x4096_S256x4096_1_0_0_1_n_n.rhsBatch by decide), dif_pos (show (1 : Fin S128x4096.rank) ∈ dot_S256x128_S128x4096_S256x4096_1_0_0_1_n_n.rhsNonContracting by decide)]
  rfl

/-- The 256 × 128 by 128 × 4096 product into a zero accumulator, entry (p, q). -/
theorem matmul_at {φ₁ φ₂ : FTy} (A : FVec Ideal S256x128 φ₁) (B : FVec Ideal S128x4096 φ₂) (p : Fin 256) (q : Fin 4096) :
    matmul (F := Ideal) dot_S256x128_S128x4096_S256x4096_1_0_0_1_n_n none A B (constant (F := Ideal) S256x4096 .f32 0x00000000#32) (ix2 p q)
      = ∑ k : Fin 128, A (ix2 p k) * B (ix2 k q) := by
  simp only [matmul]
  rw [Ideal.matmul_constant_zero_apply, ← Equiv.sum_comp (ValueIdx.contrEquiv1 dot_S256x128_S128x4096_S256x4096_1_0_0_1_n_n 128 rfl rfl).symm]
  refine Finset.sum_congr rfl fun k _ => ?_
  have hk := ValueIdx.contrEquiv1_symm_val dot_S256x128_S128x4096_S256x4096_1_0_0_1_n_n 128 rfl rfl k
  have el : dot_S256x128_S128x4096_S256x4096_1_0_0_1_n_n.lhsIdx (ix2 p q) ((ValueIdx.contrEquiv1 dot_S256x128_S128x4096_S256x4096_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S256x128_S128x4096_S256x4096_1_0_0_1_n_n.rhsIdx (ix2 p q) ((ValueIdx.contrEquiv1 dot_S256x128_S128x4096_S256x4096_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ### One chunk of sixteen documents -/

/-- Row 32 r + l of the flattened query block. -/
def row (r : Fin 8) (l : Fin 32) : Fin 256 := ⟨32 * r.val + l.val, by omega⟩
/-- Column 256 b' + j of a chunk's flattened documents. -/
def col (b' : Fin 16) (j : Fin 256) : Fin 4096 := ⟨256 * b'.val + j.val, by omega⟩

/-- One chunk of sixteen documents against the 256 query rows: cut the chunk out, flatten it to 4096 rows, transpose,
    multiply, unflatten the columns, take the maximum over the sequence axis, unflatten the rows, sum over l. -/
def chunk (off : Fin 3 → Nat) (hs : S64x256x128.Slices off S16x256x128) (v10 : FVec Ideal S256x128 .bf16)
    (v26 : FVec Ideal S64x256x128 .f32) : FVec Ideal S8x16 .f32 :=
  multiReduction (F := Ideal) .add [1] S8x16
    (shapeCast S8x32x16
      (multiReduction (F := Ideal) .maximumf [2] S256x16
        (shapeCast S256x16x256
          (matmul (F := Ideal) dot_S256x128_S128x4096_S256x4096_1_0_0_1_n_n none v10
            (transpose S128x4096 [1, 0]
              (truncf .bf16 (shapeCast S4096x128 (extractStridedSlice S16x256x128 off v26 hs) shapeCasts_S16x256x128_S4096x128)
                bitsLt_bf16_f32)
              transposes_S4096x128_p1_0_S128x4096)
            (constant (F := Ideal) S256x4096 .f32 0x00000000#32))
          shapeCasts_S256x4096_S256x16x256)
        0xFF800000#32 reduces_S256x16x256_S256x16 (.inl rfl) rfl)
      shapeCasts_S256x16_S8x32x16)
    0x00000000#32 reduces_S8x32x16_S8x16 (.inl rfl) rfl

/-- Entry (r, b') of a chunk: Σ_l max_j Σ_k of query row (r, l) against document 16 c + b' at position j. -/
theorem chunk_apply (off : Fin 3 → Nat) (hs : S64x256x128.Slices off S16x256x128) (c : Nat)
    (h0 : off 0 = 16 * c) (h1 : off 1 = 0) (h2 : off 2 = 0)
    (v10 : FVec Ideal S256x128 .bf16) (v26 : FVec Ideal S64x256x128 .f32)
    (r : Fin 8) (b' : Fin 16) (b : Fin 64) (hb : b.val = 16 * c + b'.val) :
    chunk off hs v10 v26 (ix2 r b')
      = ∑ l : Fin 32, (Finset.univ : Finset (Fin 256)).fold max Cert.Spec.negInf
          (fun j => ∑ k : Fin 128, v10 (ix2 (row r l) k) * v26 (ix3 b j k)) := by
  unfold chunk
  refine (sum_axis1 _ r b').trans (Finset.sum_congr rfl fun l _ => ?_)
  refine (cast_rows _ r l b' (row r l) rfl).trans ?_
  refine (max_axis2 _ (row r l) b').trans ?_
  refine congrArg (fun f => (Finset.univ : Finset (Fin 256)).fold max Cert.Spec.negInf f) (funext fun j => ?_)
  refine (cast_cols _ (row r l) b' j (col b' j) rfl).trans ?_
  refine (matmul_at _ _ (row r l) (col b' j)).trans (Finset.sum_congr rfl fun k _ => ?_)
  refine congrArg (v10 (ix2 (row r l) k) * ·) ?_
  refine (transpose_at _ k (col b' j)).trans ?_
  refine (truncf_apply (ψ := .bf16) _ bitsLt_bf16_f32 _).trans ?_
  refine (cast_docs _ b' j k (col b' j) rfl).trans ?_
  exact slice_at off hs c h0 h1 h2 v26 b' j k b hb

theorem pay3_eq (v0 : Vec Ideal S8x32x128 .f32) (v11 : Vec Ideal S1x64x256x128 .f32) (v13 : Vec Ideal S1x64x256 .i32) :
    k0_pay3 (F := Ideal) v0 v11 v13
      = chunk ![0, 0, 0] slices_S64x256x128_o0_0_0_S16x256x128 (k0_pay1 v0) (k0_pay2 v11 v13) := rfl
theorem pay5_eq (v10 : FVec Ideal S256x128 .bf16) (v26 : FVec Ideal S64x256x128 .f32) :
    k0_pay5 (F := Ideal) v10 v26
      = shapeCast S1x8x16 (chunk ![16, 0, 0] slices_S64x256x128_o16_0_0_S16x256x128 v10 v26) shapeCasts_S8x16_S1x8x16 := rfl
theorem pay6_eq (v10 : FVec Ideal S256x128 .bf16) (v26 : FVec Ideal S64x256x128 .f32) :
    k0_pay6 (F := Ideal) v10 v26
      = shapeCast S1x8x16 (chunk ![32, 0, 0] slices_S64x256x128_o32_0_0_S16x256x128 v10 v26) shapeCasts_S8x16_S1x8x16 := rfl
theorem pay7_eq (v10 : FVec Ideal S256x128 .bf16) (v26 : FVec Ideal S64x256x128 .f32) :
    k0_pay7 (F := Ideal) v10 v26
      = shapeCast S1x8x16 (chunk ![48, 0, 0] slices_S64x256x128_o48_0_0_S16x256x128 v10 v26) shapeCasts_S8x16_S1x8x16 := rfl

/-! ### The two normalised operands at an index -/

theorem cast_q (v : FVec Ideal S8x32x128 .f32) (r : Fin 8) (l : Fin 32) (k : Fin 128) (p : Fin 256)
    (hp : p.val = 32 * r.val + l.val) :
    shapeCast S256x128 v shapeCasts_S8x32x128_S256x128 (ix2 p k) = v (ix3 r l k) :=
  shapeCast_apply v _ (ix2 p k) (ix3 r l k) (by
    rw [Shape.rowMajor_val_two, Shape.rowMajor_val_three]
    show (r.val * 32 + l.val) * 128 + k.val = p.val * 128 + k.val
    omega)

theorem bcast_q (v : FVec Ideal S8x32x1 .f32) (r : Fin 8) (l : Fin 32) (k : Fin 128) :
    broadcastTo S8x32x128 v broadcasts_S8x32x1_S8x32x128 (ix3 r l k) = v (ix3 r l (0 : Fin 1)) :=
  broadcastTo_apply v _ (ix3 r l k) (ix3 r l (0 : Fin 1)) (fun a => match a with
    | ⟨0, _⟩ => rfl | ⟨1, _⟩ => rfl | ⟨2, _⟩ => rfl)

theorem cast_q1 (v : FVec Ideal S8x32 .f32) (r : Fin 8) (l : Fin 32) :
    shapeCast S8x32x1 v shapeCasts_S8x32_S8x32x1 (ix3 r l (0 : Fin 1)) = v (ix2 r l) :=
  shapeCast_apply v _ (ix3 r l (0 : Fin 1)) (ix2 r l) (by
    rw [Shape.rowMajor_val_two, Shape.rowMajor_val_three]
    show r.val * 32 + l.val = (r.val * 32 + l.val) * 1 + (0 : Fin 1).val
    simp)

theorem sum_q (v : FVec Ideal S8x32x128 .f32) (r : Fin 8) (l : Fin 32) :
    multiReduction (F := Ideal) .add [2] S8x32 v 0x00000000#32 reduces_S8x32x128_S8x32 (.inl rfl) rfl (ix2 r l)
      = ∑ k : Fin 128, v (ix3 r l k) :=
  (Ideal.multiReduction_add_single v _ _ _ _ (ix2 r l)).trans
    (Finset.sum_congr rfl fun k _ => congrArg v (funext fun c => Fin.ext (match c with
      | ⟨0, _⟩ => rfl | ⟨1, _⟩ => rfl | ⟨2, _⟩ => rfl)))

/-- Row 32 r + l of the normalised query block is query vector (r, l) at unit length. -/
theorem pay1_apply (x0 : Vec Ideal S8x32x128 .f32) (r : Fin 8) (l : Fin 32) (k : Fin 128) (p : Fin 256)
    (hp : p.val = 32 * r.val + l.val) :
    k0_pay1 (F := Ideal) x0 (ix2 p k) = qnB x0 r l k := by
  unfold k0_pay1 qnB Cert.Spec.unit
  refine (truncf_apply (ψ := .bf16) _ bitsLt_bf16_f32 _).trans ?_
  refine (cast_q _ r l k p hp).trans ?_
  refine (divf_apply _ _ _).trans ?_
  refine congrArg (Ideal.div (x0 (ix3 r l k))) ?_
  refine (bcast_q _ r l k).trans ?_
  refine (maximumf_apply _ _ _).trans ?_
  refine congrArg₂ max ?_ rfl
  show Ideal.sqrt _ = Ideal.sqrt _
  refine congrArg Ideal.sqrt ?_
  refine (cast_q1 _ r l).trans ?_
  exact sum_q _ r l

/-! ### The masked, normalised document block at an index -/

theorem cast_d (v : FVec Ideal S1x64x256x128 .f32) (b : Fin 64) (j : Fin 256) (k : Fin 128) :
    shapeCast S64x256x128 v shapeCasts_S1x64x256x128_S64x256x128 (ix3 b j k) = v (ix4 (0 : Fin 1) b j k) :=
  shapeCast_apply v _ (ix3 b j k) (ix4 (0 : Fin 1) b j k) (by
    rw [Shape.rowMajor_val_three, Shape.rowMajor_val_four]
    show (((0 : Fin 1).val * 64 + b.val) * 256 + j.val) * 128 + k.val = (b.val * 256 + j.val) * 128 + k.val
    simp)

theorem cast_m {α : Type} (v : S1x64x256.Idx → α) (b : Fin 64) (j : Fin 256) :
    shapeCast S64x256 v shapeCasts_S1x64x256_S64x256 (ix2 b j) = v (ix3 (0 : Fin 1) b j) :=
  shapeCast_apply v _ (ix2 b j) (ix3 (0 : Fin 1) b j) (by
    rw [Shape.rowMajor_val_two, Shape.rowMajor_val_three]
    show ((0 : Fin 1).val * 64 + b.val) * 256 + j.val = b.val * 256 + j.val
    simp)

theorem cast_m1 (v : FVec Ideal S64x256 .f32) (b : Fin 64) (j : Fin 256) :
    shapeCast S64x256x1 v shapeCasts_S64x256_S64x256x1 (ix3 b j (0 : Fin 1)) = v (ix2 b j) :=
  shapeCast_apply v _ (ix3 b j (0 : Fin 1)) (ix2 b j) (by
    rw [Shape.rowMajor_val_two, Shape.rowMajor_val_three]
    show b.val * 256 + j.val = (b.val * 256 + j.val) * 1 + (0 : Fin 1).val
    simp)

theorem bcast_m (v : FVec Ideal S64x256x1 .f32) (b : Fin 64) (j : Fin 256) (k : Fin 128) :
    broadcastTo S64x256x128 v broadcasts_S64x256x1_S64x256x128 (ix3 b j k) = v (ix3 b j (0 : Fin 1)) :=
  broadcastTo_apply v _ (ix3 b j k) (ix3 b j (0 : Fin 1)) (fun a => match a with
    | ⟨0, _⟩ => rfl | ⟨1, _⟩ => rfl | ⟨2, _⟩ => rfl)

theorem sum_d (v : FVec Ideal S64x256x128 .f32) (b : Fin 64) (k : Fin 128) :
    multiReduction (F := Ideal) .add [1] S64x128 v 0x00000000#32 reduces_S64x256x128_S64x128 (.inl rfl) rfl (ix2 b k)
      = ∑ j : Fin 256, v (ix3 b j k) :=
  (Ideal.multiReduction_add_single v _ _ _ _ (ix2 b k)).trans
    (Finset.sum_congr rfl fun j _ => congrArg v (funext fun c => Fin.ext (match c with
      | ⟨0, _⟩ => rfl | ⟨1, _⟩ => rfl | ⟨2, _⟩ => rfl)))

theorem cast_d1 (v : FVec Ideal S64x128 .f32) (b : Fin 64) (k : Fin 128) :
    shapeCast S64x1x128 v shapeCasts_S64x128_S64x1x128 (ix3 b (0 : Fin 1) k) = v (ix2 b k) :=
  shapeCast_apply v _ (ix3 b (0 : Fin 1) k) (ix2 b k) (by
    rw [Shape.rowMajor_val_two, Shape.rowMajor_val_three]
    show b.val * 128 + k.val = (b.val * 1 + (0 : Fin 1).val) * 128 + k.val
    simp)

theorem bcast_d (v : FVec Ideal S64x1x128 .f32) (b : Fin 64) (j : Fin 256) (k : Fin 128) :
    broadcastTo S64x256x128 v broadcasts_S64x1x128_S64x256x128 (ix3 b j k) = v (ix3 b (0 : Fin 1) k) :=
  broadcastTo_apply v _ (ix3 b j k) (ix3 b (0 : Fin 1) k) (fun a => match a with
    | ⟨0, _⟩ => rfl | ⟨1, _⟩ => rfl | ⟨2, _⟩ => rfl)

/-- The document block times its mask, as an array. -/
def dmV (x1 : Vec Ideal S1x64x256x128 .f32) (x2 : Vec Ideal S1x64x256 .i32) : FVec Ideal S64x256x128 .f32 :=
  mulf (shapeCast S64x256x128 x1 shapeCasts_S1x64x256x128_S64x256x128)
    (broadcastTo S64x256x128
      (shapeCast S64x256x1 (sitofp (F := Ideal) .f32 (shapeCast S64x256 x2 shapeCasts_S1x64x256_S64x256)) shapeCasts_S64x256_S64x256x1)
      broadcasts_S64x256x1_S64x256x128)

theorem dmV_apply (x1 : Vec Ideal S1x64x256x128 .f32) (x2 : Vec Ideal S1x64x256 .i32) (b : Fin 64) (j : Fin 256) (k : Fin 128) :
    dmV x1 x2 (ix3 b j k) = dmB x1 x2 b j k := by
  unfold dmV dmB
  refine (mulf_apply _ _ _).trans ?_
  refine congrArg₂ (· * ·) (cast_d _ b j k) ?_
  refine (bcast_m _ b j k).trans ?_
  refine (cast_m1 _ b j).trans ?_
  refine (sitofp_apply (F := Ideal) (φ := .f32) _ _).trans ?_
  exact congrArg (fun w : BitVec 32 => ((w.toInt : ℝ) : EReal)) (cast_m _ b j)

theorem pay2_eq (x1 : Vec Ideal S1x64x256x128 .f32) (x2 : Vec Ideal S1x64x256 .i32) :
    k0_pay2 (F := Ideal) x1 x2
      = divf (dmV x1 x2) (broadcastTo S64x256x128
          (maximumf (sqrt (shapeCast S64x1x128
              (multiReduction (F := Ideal) .add [1] S64x128 (mulf (dmV x1 x2) (dmV x1 x2)) 0x00000000#32 reduces_S64x256x128_S64x128 (.inl rfl) rfl)
              shapeCasts_S64x128_S64x1x128))
            (broadcast S64x1x128 (Scalar.ofBits (F := Ideal) .f32 0x2B8CBCCC#32)))
          broadcasts_S64x1x128_S64x256x128) := rfl

/-- Entry (b, j, k) of the normalised document block is the masked column (b, ·, k) at unit length, at j. -/
theorem pay2_apply (x1 : Vec Ideal S1x64x256x128 .f32) (x2 : Vec Ideal S1x64x256 .i32) (b : Fin 64) (j : Fin 256) (k : Fin 128) :
    k0_pay2 (F := Ideal) x1 x2 (ix3 b j k) = dnB x1 x2 b j k := by
  refine (congrFun (pay2_eq x1 x2) _).trans ?_
  unfold dnB Cert.Spec.unit
  refine (divf_apply _ _ _).trans ?_
  refine congrArg₂ Ideal.div (dmV_apply x1 x2 b j k) ?_
  refine (bcast_d _ b j k).trans ?_
  refine (maximumf_apply _ _ _).trans ?_
  refine congrArg₂ max ?_ rfl
  show Ideal.sqrt _ = Ideal.sqrt _
  refine congrArg Ideal.sqrt ?_
  refine (cast_d1 _ b k).trans ?_
  refine (sum_d _ b k).trans (Finset.sum_congr rfl fun j' _ => ?_)
  refine (mulf_apply _ _ _).trans ?_
  exact congrArg₂ (· * ·) (dmV_apply x1 x2 b j' k) (dmV_apply x1 x2 b j' k)

/-! ### The four pieces and the block -/

/-- A chunk's piece at (0, r, b') is the score of query row-block r against document 16 c + b'. -/
theorem piece_apply (off : Fin 3 → Nat) (hs : S64x256x128.Slices off S16x256x128) (c : Nat) (hc : c < 4)
    (h0 : off 0 = 16 * c) (h1 : off 1 = 0) (h2 : off 2 = 0)
    (x0 : Vec Ideal S8x32x128 .f32) (x1 : Vec Ideal S1x64x256x128 .f32) (x2 : Vec Ideal S1x64x256 .i32)
    (r : Fin 8) (b' : Fin 16) (b : Fin 64) (hb : b.val = 16 * c + b'.val) :
    shapeCast S1x8x16 (chunk off hs (k0_pay1 x0) (k0_pay2 x1 x2)) shapeCasts_S8x16_S1x8x16 (ix3 (0 : Fin 1) r b')
      = scoreB x0 x1 x2 r b := by
  refine (cast_unit _ r b').trans ?_
  refine (chunk_apply off hs c h0 h1 h2 _ _ r b' b hb).trans ?_
  unfold scoreB
  refine Finset.sum_congr rfl fun l _ => ?_
  refine congrArg (fun f => (Finset.univ : Finset (Fin 256)).fold max Cert.Spec.negInf f) (funext fun j => ?_)
  refine Finset.sum_congr rfl fun k _ => ?_
  exact congrArg₂ (· * ·) (pay1_apply x0 r l k (row r l) rfl) (pay2_apply x1 x2 b j k)

theorem pay4_eq (v0 : Vec Ideal S8x32x128 .f32) (v11 : Vec Ideal S1x64x256x128 .f32) (v13 : Vec Ideal S1x64x256 .i32) :
    k0_pay4 (F := Ideal) (k0_pay3 v0 v11 v13)
      = shapeCast S1x8x16 (chunk ![0, 0, 0] slices_S64x256x128_o0_0_0_S16x256x128 (k0_pay1 v0) (k0_pay2 v11 v13)) shapeCasts_S8x16_S1x8x16 := rfl

theorem scoreB_congr (x0 : Vec Ideal S8x32x128 .f32) (x1 : Vec Ideal S1x64x256x128 .f32) (x2 : Vec Ideal S1x64x256 .i32)
    {r r' : Fin 8} {b b' : Fin 64} (hr : r.val = r'.val) (hb : b.val = b'.val) :
    scoreB x0 x1 x2 r b = scoreB x0 x1 x2 r' b' := by
  obtain rfl : r = r' := Fin.ext hr
  obtain rfl : b = b' := Fin.ext hb
  rfl

/-- The block of scores as a function of the buffer's index. -/
def scoreAt (x0 : Vec Ideal S8x32x128 .f32) (x1 : Vec Ideal S1x64x256x128 .f32) (x2 : Vec Ideal S1x64x256 .i32) :
    S1x8x64.Idx → EReal :=
  fun y => scoreB x0 x1 x2 ⟨(y 1).val, (y 1).isLt⟩ ⟨(y 2).val, (y 2).isLt⟩

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What the body leaves in the output window's buffer, entry by entry. -/
theorem out3_apply (x0 : Vec Ideal S8x32x128 .f32) (x1 : Vec Ideal S1x64x256x128 .f32) (x2 : Vec Ideal S1x64x256 .i32) (r : Fin 8) (b : Fin 64) :
    Cert.KernelIdeal.Region.out3 (F := Ideal) x0 x1 x2 (ix3 (0 : Fin 1) r b) = scoreB x0 x1 x2 r b := by
  unfold Cert.KernelIdeal.Region.out3
  simp only [View.ld_unit_zero (S := S8x32x128) hz3, View.ld_unit_zero (S := S1x64x256x128) hz4,
    View.ld_unit_zero (S := S1x64x256) hz3]
  refine (View.canon_apply_of_pieces (scoreAt x0 x1 x2) _ ?_ (ix3 (0 : Fin 1) r b)
    (Cert.KernelIdeal.Region.cover3 _ _ _ _ _)).trans rfl
  intro p hp
  simp only [List.mem_cons, List.not_mem_nil, or_false] at hp
  rcases hp with rfl | rfl | rfl | rfl
  · intro (x : S1x8x16.Idx)
    obtain ⟨a, r', b', rfl⟩ : ∃ (a : Fin 1) (r' : Fin 8) (b' : Fin 16), x = ix3 a r' b' := ⟨x 0, x 1, x 2, eq_ix3 x⟩
    obtain rfl : a = 0 := Subsingleton.elim _ _
    refine (congrFun (pay7_eq _ _) _).trans ?_
    refine (piece_apply _ _ 3 (by omega) rfl rfl rfl x0 x1 x2 r' b' ⟨48 + b'.val, by omega⟩
      (by show 48 + b'.val = 16 * 3 + b'.val; omega)).trans ?_
    exact scoreB_congr x0 x1 x2 (by show r'.val = 0 + 1 * r'.val; omega) (by show 48 + b'.val = 48 + 1 * b'.val; omega)
  · intro (x : S1x8x16.Idx)
    obtain ⟨a, r', b', rfl⟩ : ∃ (a : Fin 1) (r' : Fin 8) (b' : Fin 16), x = ix3 a r' b' := ⟨x 0, x 1, x 2, eq_ix3 x⟩
    obtain rfl : a = 0 := Subsingleton.elim _ _
    refine (congrFun (pay6_eq _ _) _).trans ?_
    refine (piece_apply _ _ 2 (by omega) rfl rfl rfl x0 x1 x2 r' b' ⟨32 + b'.val, by omega⟩
      (by show 32 + b'.val = 16 * 2 + b'.val; omega)).trans ?_
    exact scoreB_congr x0 x1 x2 (by show r'.val = 0 + 1 * r'.val; omega) (by show 32 + b'.val = 32 + 1 * b'.val; omega)
  · intro (x : S1x8x16.Idx)
    obtain ⟨a, r', b', rfl⟩ : ∃ (a : Fin 1) (r' : Fin 8) (b' : Fin 16), x = ix3 a r' b' := ⟨x 0, x 1, x 2, eq_ix3 x⟩
    obtain rfl : a = 0 := Subsingleton.elim _ _
    refine (congrFun (pay5_eq _ _) _).trans ?_
    refine (piece_apply _ _ 1 (by omega) rfl rfl rfl x0 x1 x2 r' b' ⟨16 + b'.val, by omega⟩
      (by show 16 + b'.val = 16 * 1 + b'.val; omega)).trans ?_
    exact scoreB_congr x0 x1 x2 (by show r'.val = 0 + 1 * r'.val; omega) (by show 16 + b'.val = 16 + 1 * b'.val; omega)
  · intro (x : S1x8x16.Idx)
    obtain ⟨a, r', b', rfl⟩ : ∃ (a : Fin 1) (r' : Fin 8) (b' : Fin 16), x = ix3 a r' b' := ⟨x 0, x 1, x 2, eq_ix3 x⟩
    obtain rfl : a = 0 := Subsingleton.elim _ _
    refine (congrFun (pay4_eq x0 x1 x2) _).trans ?_
    refine (piece_apply _ _ 0 (by omega) rfl rfl rfl x0 x1 x2 r' b' ⟨0 + b'.val, by omega⟩
      (by show 0 + b'.val = 16 * 0 + b'.val; omega)).trans ?_
    exact scoreB_congr x0 x1 x2 (by show r'.val = 0 + 1 * r'.val; omega) (by show 0 + b'.val = 0 + 1 * b'.val; omega)

end Cert.KernelIdeal.Block

end
-- ==== Proof.Final.lean ====
/-
  From blocks to the array: grid point t = 8·n + j writes rows 8j … 8j+7 of batch n of the result, reading query rows
  8j … 8j+7 and document batch n; the sixteen blocks tile the 2 × 64 × 64 array, so after the region the array holds
  the score function G of the three argument arrays.
-/
import proofs.«109320_j15152644621119_1_alg».proof.Proof.Block
import Idealize.ShloMosaic.Lib.Pipeline.Value

set_option maxRecDepth 16384

noncomputable section

namespace Cert.KernelIdeal.Final

open Cert.KernelIdeal Cert.KernelIdeal.Gen Cert.KernelIdeal.Region
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The block index of each window at grid point t = 8·n + j: queries at (j, 0, 0), documents at (n, 0, 0, 0),
    mask at (n, 0, 0), result at (n, j, 0). -/
theorem idx_facts : ∀ t : Fin cfg0.N,
    win0_0.index t (0 : Fin 3) = t.val % 8 ∧ win0_0.index t (1 : Fin 3) = 0 ∧ win0_0.index t (2 : Fin 3) = 0
    ∧ win0_1.index t (0 : Fin 4) = t.val / 8 ∧ win0_1.index t (1 : Fin 4) = 0 ∧ win0_1.index t (2 : Fin 4) = 0 ∧ win0_1.index t (3 : Fin 4) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0 :=
  (by decide +kernel : ∀ t : Fin grid0.N, _)

/-- A grid point is below sixteen. -/
theorem t_lt (t : Fin cfg0.N) : t.val < 16 :=
  lt_of_lt_of_eq t.isLt (show cfg0.N = 16 from N_0)

/-- The query block at point t is query rows 8·(t mod 8) … 8·(t mod 8)+7. -/
theorem iblk0_apply (c : Dev nD) (t : Fin cfg0.N) (r : Fin 8) (l : Fin 32) (k : Fin 128) (bq : Fin 64)
    (hbq : bq.val = 8 * (t.val % 8) + r.val) :
    (iblk m c 0 t : Vec Ideal S8x32x128 .f32) (ix3 r l k)
      = (m ((c.tc : Thread nD τ).loc main_arg0) : S64x32x128.Idx → Elt Ideal .f32) (ix3 bq l k) := by
  obtain ⟨e0, e1, e2, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 3) * 8 + 1 * r.val = bq.val; rw [e0, hbq]; omega
  | ⟨1, _⟩ => show win0_0.index t (1 : Fin 3) * 32 + 1 * l.val = l.val; rw [e1]; omega
  | ⟨2, _⟩ => show win0_0.index t (2 : Fin 3) * 128 + 1 * k.val = k.val; rw [e2]; omega

/-- The document block at point t is document batch t / 8, whole. -/
theorem iblk1_apply (c : Dev nD) (t : Fin cfg0.N) (b : Fin 64) (j : Fin 256) (k : Fin 128) (n : Fin 2)
    (hn : n.val = t.val / 8) :
    (iblk m c 1 t : Vec Ideal S1x64x256x128 .f32) (ix4 (0 : Fin 1) b j k)
      = (m ((c.tc : Thread nD τ).loc main_arg1) : S2x64x256x128.Idx → Elt Ideal .f32) (ix4 n b j k) := by
  obtain ⟨-, -, -, e0, e1, e2, e3, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 4) * 1 + 1 * (0 : Fin 1).val = n.val; rw [e0, hn]; simp
  | ⟨1, _⟩ => show win0_1.index t (1 : Fin 4) * 64 + 1 * b.val = b.val; rw [e1]; omega
  | ⟨2, _⟩ => show win0_1.index t (2 : Fin 4) * 256 + 1 * j.val = j.val; rw [e2]; omega
  | ⟨3, _⟩ => show win0_1.index t (3 : Fin 4) * 128 + 1 * k.val = k.val; rw [e3]; omega

/-- The mask block at point t is the mask of batch t / 8, whole. -/
theorem iblk2_apply (c : Dev nD) (t : Fin cfg0.N) (b : Fin 64) (j : Fin 256) (n : Fin 2)
    (hn : n.val = t.val / 8) :
    (iblk m c 2 t : Vec Ideal S1x64x256 .i32) (ix3 (0 : Fin 1) b j)
      = (m ((c.tc : Thread nD τ).loc main_arg2) : S2x64x256.Idx → Elt Ideal .i32) (ix3 n b j) := by
  obtain ⟨-, -, -, -, -, -, -, e0, e1, e2, -⟩ := idx_facts t
  unfold iblk
  rw [View.read_apply]
  show V m c main_arg2 _ = m (c.tc.loc main_arg2) _
  unfold V
  congr 1
  funext a
  apply Fin.ext
  match a with
  | ⟨0, _⟩ => show win0_2.index t (0 : Fin 3) * 1 + 1 * (0 : Fin 1).val = n.val; rw [e0, hn]; simp
  | ⟨1, _⟩ => show win0_2.index t (1 : Fin 3) * 64 + 1 * b.val = b.val; rw [e1]; omega
  | ⟨2, _⟩ => show win0_2.index t (2 : Fin 3) * 256 + 1 * j.val = j.val; rw [e2]; omega

/-- The unit-length query vector of the block is that of the array, rows shifted by the block's offset. -/
theorem qnB_eq (c : Dev nD) (t : Fin cfg0.N) (r : Fin 8) (l : Fin 32) (k : Fin 128) (bq : Fin 64)
    (hbq : bq.val = 8 * (t.val % 8) + r.val) :
    Block.qnB (iblk m c 0 t) r l k = Cert.Spec.qn (m ((c.tc : Thread nD τ).loc main_arg0)) bq l k := by
  have h : ∀ k' : Fin 128, (iblk m c 0 t : Vec Ideal S8x32x128 .f32) (ix3 r l k')
      = (m ((c.tc : Thread nD τ).loc main_arg0) : S64x32x128.Idx → Elt Ideal .f32) (ix3 bq l k') :=
    fun k' => iblk0_apply m c t r l k' bq hbq
  unfold Block.qnB Cert.Spec.qn
  refine congrArg₂ Cert.Spec.unit (h k) (Finset.sum_congr rfl fun k' _ => ?_)
  rw [h k']

/-- The masked document entry of the block is that of the array, in batch t / 8. -/
theorem dmB_eq (c : Dev nD) (t : Fin cfg0.N) (b : Fin 64) (j : Fin 256) (k : Fin 128) (n : Fin 2)
    (hn : n.val = t.val / 8) :
    Block.dmB (iblk m c 1 t) (iblk m c 2 t) b j k
      = Cert.Spec.dm (m ((c.tc : Thread nD τ).loc main_arg1)) (m ((c.tc : Thread nD τ).loc main_arg2)) n b j k := by
  unfold Block.dmB Cert.Spec.dm
  refine congrArg₂ (· * ·) (iblk1_apply m c t b j k n hn) ?_
  exact congrArg (fun w : BitVec 32 => ((w.toInt : ℝ) : EReal)) (iblk2_apply m c t b j n hn)

/-- The unit-length masked document column of the block is that of the array, in batch t / 8. -/
theorem dnB_eq (c : Dev nD) (t : Fin cfg0.N) (b : Fin 64) (j : Fin 256) (k : Fin 128) (n : Fin 2)
    (hn : n.val = t.val / 8) :
    Block.dnB (iblk m c 1 t) (iblk m c 2 t) b j k
      = Cert.Spec.dn (m ((c.tc : Thread nD τ).loc main_arg1)) (m ((c.tc : Thread nD τ).loc main_arg2)) n b j k := by
  unfold Block.dnB Cert.Spec.dn
  refine congrArg₂ Cert.Spec.unit (dmB_eq m c t b j k n hn) (Finset.sum_congr rfl fun j' _ => ?_)
  rw [dmB_eq m c t b j' k n hn]

/-- Entry (r, b) of the block point t leaves is the score of batch t / 8, query row-block 8·(t mod 8) + r, document b. -/
theorem out3_at (c : Dev nD) (t : Fin cfg0.N) (r : Fin 8) (b : Fin 64) (n : Fin 2) (bq : Fin 64)
    (hn : n.val = t.val / 8) (hbq : bq.val = 8 * (t.val % 8) + r.val) :
    out3 (F := Ideal) (iblk m c 0 t) (iblk m c 1 t) (iblk m c 2 t) (ix3 (0 : Fin 1) r b)
      = Cert.Spec.score (m ((c.tc : Thread nD τ).loc main_arg0)) (m ((c.tc : Thread nD τ).loc main_arg1))
          (m ((c.tc : Thread nD τ).loc main_arg2)) n bq b := by
  refine (Block.out3_apply _ _ _ r b).trans ?_
  unfold Block.scoreB Cert.Spec.score
  refine Finset.sum_congr rfl fun l _ => ?_
  refine Finset.fold_congr fun j _ => ?_
  unfold Cert.Spec.sim
  refine Finset.sum_congr rfl fun k _ => ?_
  rw [qnB_eq m c t r l k bq hbq, dnB_eq m c t b j k n hn]

/-- What point t writes back is its block of the score array. -/
theorem flushed_eq (c : Dev nD) (t : Fin cfg0.N) :
    (dats (F := Ideal) m 0 c).flushed 3 t = ((cfg0.win 3).blk t).view.read (Elt Ideal)
      (Cert.Spec.G (m ((c.tc : Thread nD τ).loc main_arg0)) (m ((c.tc : Thread nD τ).loc main_arg1))
        (m ((c.tc : Thread nD τ).loc main_arg2))) := by
  show (cfg0.win 3).cut (grid0.coords t) ((dats m 0 c).after 3 t) = _
  rw [after0_3]
  have ht := t_lt t
  obtain ⟨-, -, -, -, -, -, -, -, -, -, e0, e1, e2⟩ := idx_facts t
  funext y
  rw [View.read_apply]
  obtain ⟨z, r, b, rfl⟩ : ∃ (z : Fin 1) (r : Fin 8) (b : Fin 64), y = ix3 z r b := ⟨y 0, y 1, y 2, eq_ix3 y⟩
  obtain rfl : z = 0 := Subsingleton.elim _ _
  refine (out3_at m c t r b ⟨t.val / 8, by omega⟩ ⟨8 * (t.val % 8) + r.val, by omega⟩ rfl rfl).trans ?_
  refine (Cert.Spec.G_ix3 _ _ _ _ _ _).symm.trans ?_
  show Cert.Spec.G _ _ _ _ = Cert.Spec.G _ _ _ _
  congr 1
  funext a
  apply Fin.ext
  match a with
  | ⟨0, _⟩ => show t.val / 8 = win0_3.index t (0 : Fin 3) * 1 + 1 * (0 : Fin 1).val; rw [e0]; simp
  | ⟨1, _⟩ => show 8 * (t.val % 8) + r.val = win0_3.index t (1 : Fin 3) * 8 + 1 * r.val; rw [e1]; omega
  | ⟨2, _⟩ => show b.val = win0_3.index t (2 : Fin 3) * 64 + 1 * b.val; rw [e2]; omega

/-- An index of the score array is in point t's block iff each coordinate is in the block's range on its axis. -/
theorem mem_blk (t : Fin cfg0.N) (i : S2x64x64.Idx) :
    i ∈ ((cfg0.win 3).blk t).view.set ↔ ∀ a : Fin 3, win0_3.index t a * S1x8x64.size a ≤ (i a).val
      ∧ (i a).val < win0_3.index t a * S1x8x64.size a + S1x8x64.size a := by
  show i ∈ ((View.whole main_v0).slice (win0_3.rect t)).set ↔ _
  rw [View.set_slice_whole, Rect.mem_set_unit]
  exact Iff.rfl

/-- The sixteen blocks tile the array: entry (n, bq, b) is in the block of point 8·n + bq / 8. -/
theorem cover (i : S2x64x64.Idx) :
    ∃ t : Fin cfg0.N, (cfg0.win 3).flush t = true ∧ i ∈ ((cfg0.win 3).blk t).view.set := by
  have h0 : (i 0).val < 2 := (i 0).isLt
  have h1 : (i 1).val < 64 := (i 1).isLt
  have h2 : (i 2).val < 64 := (i 2).isLt
  obtain ⟨t, htv⟩ : ∃ t : Fin cfg0.N, t.val = 8 * (i 0).val + (i 1).val / 8 :=
    ⟨⟨8 * (i 0).val + (i 1).val / 8, by rw [show cfg0.N = 16 from N_0]; omega⟩, rfl⟩
  obtain ⟨-, -, -, -, -, -, -, -, -, -, e0, e1, e2⟩ := idx_facts t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    rw [e0, htv]; omega
  | ⟨1, _⟩ =>
    show win0_3.index t (1 : Fin 3) * 8 ≤ (i 1).val ∧ (i 1).val < win0_3.index t (1 : Fin 3) * 8 + 8
    rw [e1, htv]; omega
  | ⟨2, _⟩ =>
    show win0_3.index t (2 : Fin 3) * 64 ≤ (i 2).val ∧ (i 2).val < win0_3.index t (2 : Fin 3) * 64 + 64
    rw [e2]; omega

/-- After the region the result array is the score function of the argument arrays as launched. -/
theorem final (c : Dev nD) :
    (dats (F := Ideal) m 0 c).arrAt 3 cfg0.N
      = Cert.Spec.G (m ((c.tc : Thread nD τ).loc main_arg0)) (m ((c.tc : Thread nD τ).loc main_arg1)) (m ((c.tc : Thread nD τ).loc main_arg2)) := by
  exact (dats (F := Ideal) m 0 c).arrAt_eq_of_cover 3 _ (fun t _ => flushed_eq m c t) cover

end Cert.KernelIdeal.Final

end
-- ==== Proof.RunValue.lean ====
/-
  The idealized kernel program's run with its result named: every weakly fair execution ends with the returned
  buffer at `tail` of the score function of the three arrays and the labels, and the arguments as launched.
  The region leaves the score array (the blocks tile it); the host operations after it apply `tail`.
-/
import proofs.«109320_j15152644621119_1_alg».proof.Proof.TailKI
import proofs.«109320_j15152644621119_1_alg».proof.Proof.Final

set_option maxRecDepth 16384

noncomputable section

namespace Cert.KernelIdeal.RunValue

open Cert.KernelIdeal Cert.KernelIdeal.Gen Cert.KernelIdeal.Region
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The loss as the idealized kernel program computes it, from the launch contents. -/
def loss (c : Dev nD) : Buf (Elt Ideal) ((c.tc : Thread nD τ).loc main_v44) :=
  Cert.KernelIdeal.Tail.tail (F := Ideal)
    (Cert.Spec.G (m ((c.tc : Thread nD τ).loc main_arg0)) (m ((c.tc : Thread nD τ).loc main_arg1)) (m ((c.tc : Thread nD τ).loc main_arg2)))
    (m ((c.tc : Thread nD τ).loc main_arg3))

/-- What the returned buffer holds after the host operations that follow the region. -/
theorem tail_value (c : Dev nD) :
    Pipeline.afterTail₀ cfgs (dats (F := Ideal) m) 0 (V0 m) tailOps c main_v44 = loss m c := by
  unfold Pipeline.afterTail₀ loss
  rw [Cert.KernelIdeal.Tail.after_tail]
  have e0 := Pipeline.withArrays_arr spec0 launch0.win.arr_inj c (V0 m c) (fun w => (dats (F := Ideal) m 0 c).arrAt w cfg0.N) 3
  have e3 := Pipeline.withArrays_of_ne spec0 c (V0 m c) (fun w => (dats (F := Ideal) m 0 c).arrAt w cfg0.N) main_arg3
    (by exact (by decide : ∀ w, Pipeline.arrRef spec0 w ≠ main_arg3))
  exact congrArg₂ (Cert.KernelIdeal.Tail.tail (F := Ideal)) (e0.trans (Cert.KernelIdeal.Final.final m c)) e3

/-- The run, with the result named and the arguments kept. -/
theorem run : θ_run defs (onTc (τ := τ) (main (F := Ideal))) ⟨m, fun _ => 0, ρ⟩ (fun r => ∀ c : Dev nD,
      r.2.mem ((c.tc : Thread nD τ).loc main_v44) = loss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v44 (Pipeline.mem_restRefs_of main_v44 (by decide) (by decide))).trans (tail_value m c),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).2 main_arg3 (Pipeline.mem_restRefs_of main_arg3 (by decide) (by decide))).trans (W_main_arg3 m (dats m) c)⟩) (run_main m ρ)

end Cert.KernelIdeal.RunValue

end
-- ==== Proof.RefTail.lean ====
/-
  The reference's last eighty-five operations are the kernel program's: read stage by stage, the reference's returned
  value is the same function `tail` of ITS score array and the labels. Nothing of the function is opened: both sides
  are the same operations on the same shapes, compared as they stand.
-/
import proofs.«109320_j15152644621119_1_alg».proof.Proof.RefRead
import proofs.«109320_j15152644621119_1_alg».proof.Proof.TailKI

set_option maxRecDepth 65536

noncomputable section

namespace Cert.ReferenceIdeal.RefTail

open Cert.ReferenceIdeal Cert.ReferenceIdeal.Gen Cert.ReferenceIdeal.ReadP
open Idealize.ShloMosaic Idealize.ShloMosaic.TcCoe

variable {F : FTy → Type} [FloatOps F]

set_option maxHeartbeats 4000000 in
/-- The reference's result from its score stage and the labels. -/
theorem loss_eq (x0 : (⟨S64x32x128, .f32⟩ : BufTy).Contents (Elt F)) (x1 : (⟨S2x64x256x128, .f32⟩ : BufTy).Contents (Elt F))
    (x2 : (⟨S2x64x256, .i32⟩ : BufTy).Contents (Elt F)) (x3 : (⟨S64x2, .f32⟩ : BufTy).Contents (Elt F)) :
    val_main_v61 (F := F) x0 x1 x2 x3 = Cert.KernelIdeal.Tail.tail (F := F) (val_main_v17 (F := F) x0 x1 x2) x3 := by
  simp only [val_main_v18, val_main_c, val_main_v19, val_main_v20, val_main_c_3, val_main_v21, val_main_v22, val_main_v23, val_main_c_4, val_main_v24, val_main_v25, val_main_c_5, val_main_v26, val_main_v27, val_main_v28, val_main_v29, val_main_v30, val_main_v31, val_main_v32, val_main_v33, val_main_call2_cst, val_main_call2_v0, val_main_call2_cst_0, val_main_call2_v1, val_main_call2_v2, val_main_call2_v3, val_main_call2_v4, val_main_call2_v5, val_main_call2_v6, val_main_call2_cst_1, val_main_call2_v7, val_main_call2_v8, val_main_call2_v9, val_main_call2_v10, val_main_v34, val_main_v35, val_main_v36, val_main_v37, val_main_cst_6, val_main_v38, val_main_cst_7, val_main_v39, val_main_v40, val_main_v41, val_main_call3_cst, val_main_call3_v0, val_main_call3_cst_0, val_main_call3_v1, val_main_call3_v2, val_main_call3_v3, val_main_call3_v4, val_main_call3_v5, val_main_call3_v6, val_main_call3_cst_1, val_main_call3_v7, val_main_call3_v8, val_main_call3_v9, val_main_call3_v10, val_main_v42, val_main_c_8, val_main_v43, val_main_v44, val_main_c_9, val_main_v45, val_main_v46, val_main_v47, val_main_c_10, val_main_v48, val_main_v49, val_main_c_11, val_main_v50, val_main_v51, val_main_v52, val_main_v53, val_main_v54, val_main_v55, val_main_v56, val_main_cst_12, val_main_v57, val_main_cst_13, val_main_v58, val_main_v59, val_main_cst_14, val_main_v60, val_main_v61]
  generalize val_main_v17 (F := F) x0 x1 x2 = S
  rfl

end Cert.ReferenceIdeal.RefTail

end
-- ==== Proof.RefScores.lean ====
/-
  The reference's score array, entry by entry: its normalisations, its one contraction over the feature axis, the
  maximum over the document's sequence axis and the sum over the query's give the score function G.
-/
import proofs.«109320_j15152644621119_1_alg».proof.Proof.RefRead
import proofs.«109320_j15152644621119_1_alg».proof.Proof.Spec

set_option maxRecDepth 16384

noncomputable section

namespace Cert.ReferenceIdeal.RefScores

open Cert.ReferenceIdeal Cert.ReferenceIdeal.Gen Cert.ReferenceIdeal.ReadP
open Idealize.ShloMosaic Idealize.ShloMosaic.TcCoe Idealize.ShloMosaic.ValueIdx

/-- The query entry (b, l, k) over the length of the query vector (b, l, ·), floored at ε. -/
theorem qhat_apply (x0 : (⟨S64x32x128, .f32⟩ : BufTy).Contents (Elt Ideal)) (b : Fin 64) (l : Fin 32) (k : Fin 128) :
    val_main_v4 (F := Ideal) x0 (ix3 b l k) = Cert.Spec.qn x0 b l k := by
  rw [val_main_v4_apply, val_main_v3_apply, val_main_v2_apply, val_main_v0_apply, val_main_call0_v2_apply,
    val_main_call0_v1_apply, val_main_v1_apply, val_main_cst_apply, val_main_call0_cst_apply]
  unfold Cert.Spec.qn Cert.Spec.unit Cert.Spec.eps
  rw [Ideal.hostDivf_def, Ideal.maximumf_def, Ideal.hostUnary_sqrt_def, Ideal.ofBits_def, Ideal.ofBits_def,
    Ideal.ofBits_zero_f32, zero_add]
  refine congrArg (fun s => Ideal.div _ (max (Ideal.sqrt s) _)) (Finset.sum_congr rfl fun k' _ => ?_)
  rw [val_main_call0_v0_apply, Ideal.mulf_def]
  have e : idx_main_call0_v1 (idx_main_call0_v2 (idx_main_v3 (ix3 b l k))) k' = ix3 b l k' :=
    funext fun a => Fin.ext (by match a with | ⟨0, _⟩ => rfl | ⟨1, _⟩ => rfl | ⟨2, _⟩ => rfl)
  rw [e]

/-- The masked document entry: the entry times its mask word read as a number. -/
theorem dm_apply (x1 : (⟨S2x64x256x128, .f32⟩ : BufTy).Contents (Elt Ideal)) (x2 : (⟨S2x64x256, .i32⟩ : BufTy).Contents (Elt Ideal))
    (n : Fin 2) (b : Fin 64) (j : Fin 256) (k : Fin 128) :
    val_main_v8 (F := Ideal) x1 x2 (ix4 n b j k) = Cert.Spec.dm x1 x2 n b j k := by
  rw [val_main_v8_apply, val_main_v7_apply, val_main_v6_apply, val_main_v5_apply]
  unfold Cert.Spec.dm
  rw [Ideal.mulf_def]
  have e : idx_main_v5 (idx_main_v7 (ix4 n b j k)) = ix3 n b j :=
    funext fun a => Fin.ext (by match a with | ⟨0, _⟩ => rfl | ⟨1, _⟩ => rfl | ⟨2, _⟩ => rfl)
  rw [e]
  rfl

/-- The masked document entry over the length of its column along the sequence axis, floored at ε. -/
theorem dhat_apply (x1 : (⟨S2x64x256x128, .f32⟩ : BufTy).Contents (Elt Ideal)) (x2 : (⟨S2x64x256, .i32⟩ : BufTy).Contents (Elt Ideal))
    (n : Fin 2) (b : Fin 64) (j : Fin 256) (k : Fin 128) :
    val_main_v13 (F := Ideal) x1 x2 (ix4 n b j k) = Cert.Spec.dn x1 x2 n b j k := by
  rw [val_main_v13_apply, val_main_v12_apply, val_main_v11_apply, val_main_v9_apply, val_main_call1_v2_apply,
    val_main_call1_v1_apply, val_main_v10_apply, val_main_cst_0_apply, val_main_call1_cst_apply, dm_apply]
  unfold Cert.Spec.dn Cert.Spec.unit Cert.Spec.eps
  rw [Ideal.hostDivf_def, Ideal.maximumf_def, Ideal.hostUnary_sqrt_def, Ideal.ofBits_def, Ideal.ofBits_def,
    Ideal.ofBits_zero_f32, zero_add]
  refine congrArg (fun s => Ideal.div _ (max (Ideal.sqrt s) _)) (Finset.sum_congr rfl fun j' _ => ?_)
  rw [val_main_call1_v0_apply, Ideal.mulf_def]
  have e : idx_main_call1_v1 (idx_main_call1_v2 (idx_main_v12 (ix4 n b j k))) j' = ix4 n b j' k :=
    funext fun a => Fin.ext (by match a with | ⟨0, _⟩ => rfl | ⟨1, _⟩ => rfl | ⟨2, _⟩ => rfl | ⟨3, _⟩ => rfl)
  rw [e, dm_apply]

/-- The contraction over the feature axis is the inner product of the two unit vectors. -/
theorem sim_apply (x0 : (⟨S64x32x128, .f32⟩ : BufTy).Contents (Elt Ideal)) (x1 : (⟨S2x64x256x128, .f32⟩ : BufTy).Contents (Elt Ideal))
    (x2 : (⟨S2x64x256, .i32⟩ : BufTy).Contents (Elt Ideal)) (n : Fin 2) (bd : Fin 64) (j : Fin 256) (bq : Fin 64) (l : Fin 32) :
    val_main_v14 (F := Ideal) x0 x1 x2 (ix5 n bd j bq l) = Cert.Spec.sim x0 x1 x2 n bq bd l j := by
  rw [val_main_v14_apply]
  unfold Cert.Spec.sim
  refine Finset.sum_congr rfl fun k _ => ?_
  have el : lidx_main_v14 (ix5 n bd j bq l) k = ix4 n bd j k :=
    funext fun a => Fin.ext (by match a with | ⟨0, _⟩ => rfl | ⟨1, _⟩ => rfl | ⟨2, _⟩ => rfl | ⟨3, _⟩ => rfl)
  have er : ridx_main_v14 (ix5 n bd j bq l) k = ix3 bq l k :=
    funext fun a => Fin.ext (by match a with | ⟨0, _⟩ => rfl | ⟨1, _⟩ => rfl | ⟨2, _⟩ => rfl)
  rw [el, er, dhat_apply, qhat_apply, mul_comm]

/-- The maximum over the document's sequence axis, from −∞. -/
theorem max_apply (x0 : (⟨S64x32x128, .f32⟩ : BufTy).Contents (Elt Ideal)) (x1 : (⟨S2x64x256x128, .f32⟩ : BufTy).Contents (Elt Ideal))
    (x2 : (⟨S2x64x256, .i32⟩ : BufTy).Contents (Elt Ideal)) (n : Fin 2) (bq bd : Fin 64) (l : Fin 32) :
    val_main_v16 (F := Ideal) x0 x1 x2 (ix4 n bq bd l)
      = (Finset.univ : Finset (Fin 256)).fold max Cert.Spec.negInf (fun j => Cert.Spec.sim x0 x1 x2 n bq bd l j) := by
  have hr : S2x64x64x32x256.Reduces [4] S2x64x64x32 := by decide
  unfold val_main_v16
  rw [Host.reduce_eq_fold_single FloatOps.maximumf _ _ reducesTo_S2x64x64x32x256_S2x64x64x32_d4 hr h_S_]
  have ef : ∀ j : Fin 256, val_main_v15 (F := Ideal) x0 x1 x2 (hr.lift (ix4 n bq bd l) j) = Cert.Spec.sim x0 x1 x2 n bq bd l j := by
    intro j
    have e1 : hr.lift (ix4 n bq bd l) j = ix5 n bq bd l j :=
      funext fun a => Fin.ext (by match a with | ⟨0, _⟩ => rfl | ⟨1, _⟩ => rfl | ⟨2, _⟩ => rfl | ⟨3, _⟩ => rfl | ⟨4, _⟩ => rfl)
    have e2 : idx_main_v15 (ix5 n bq bd l j) = ix5 n bd j bq l :=
      funext fun a => Fin.ext (by match a with | ⟨0, _⟩ => rfl | ⟨1, _⟩ => rfl | ⟨2, _⟩ => rfl | ⟨3, _⟩ => rfl | ⟨4, _⟩ => rfl)
    rw [e1, val_main_v15_apply, e2, sim_apply]
  rw [show (val_main_v15 (F := Ideal) x0 x1 x2 ∘ hr.lift (ix4 n bq bd l)) = fun j : Fin 256 => Cert.Spec.sim x0 x1 x2 n bq bd l j from funext ef]
  rfl

/-- The reference's score stage is G. -/
theorem scores_eq (x0 : (⟨S64x32x128, .f32⟩ : BufTy).Contents (Elt Ideal)) (x1 : (⟨S2x64x256x128, .f32⟩ : BufTy).Contents (Elt Ideal))
    (x2 : (⟨S2x64x256, .i32⟩ : BufTy).Contents (Elt Ideal)) :
    val_main_v17 (F := Ideal) x0 x1 x2 = Cert.Spec.G x0 x1 x2 := by
  funext i
  obtain ⟨n, bq, bd, rfl⟩ : ∃ (n : Fin 2) (bq bd : Fin 64), i = ix3 n bq bd := ⟨i 0, i 1, i 2, eq_ix3 i⟩
  rw [Cert.Spec.G_ix3, val_main_v17_apply, val_main_cst_2_apply, Ideal.ofBits_def, Ideal.ofBits_zero_f32, zero_add]
  unfold Cert.Spec.score
  refine Finset.sum_congr rfl fun l _ => ?_
  have e : idx_main_v17 (ix3 n bq bd) l = ix4 n bq bd l :=
    funext fun a => Fin.ext (by match a with | ⟨0, _⟩ => rfl | ⟨1, _⟩ => rfl | ⟨2, _⟩ => rfl | ⟨3, _⟩ => rfl)
  rw [e, max_apply]

end Cert.ReferenceIdeal.RefScores

end
-- ==== Proof.lean ====
/-
  The certificate. Both programs compute  kl + ½·ce  of the MaxSim score array S(n, bq, bd) = Σ_l max_j ⟨q̂(bq,l), d̂(n,bd,j)⟩:
  the kernel program in one pipelined region (sixteen grid points, each an 8 × 64 block of S from a block of queries
  and one batch of masked, column-normalised documents) followed by host operations; the reference by one contraction,
  a maximum and a sum on the host, followed by the same host operations. Over the extended reals the two score arrays
  are one function G of the arguments (sums and products commute; no law that needs finiteness is used), and the
  operations after them are one function `tail`, so the results agree. The frames: the region writes only its result
  array and no host operation writes an argument. The idealization rewrote nothing, so `preserves` is trivial.
-/
import proofs.«109320_j15152644621119_1_alg».proof.Defs
import proofs.«109320_j15152644621119_1_alg».proof.Proof.Gen.Kernel
import proofs.«109320_j15152644621119_1_alg».proof.Proof.Gen.KernelIdeal
import proofs.«109320_j15152644621119_1_alg».proof.Proof.Gen.ReferenceIdeal
import proofs.«109320_j15152644621119_1_alg».proof.Proof.Gen.Pre_finite_inputs
import proofs.«109320_j15152644621119_1_alg».proof.Proof.RegionK
import proofs.«109320_j15152644621119_1_alg».proof.Proof.RunValue
import proofs.«109320_j15152644621119_1_alg».proof.Proof.RefRun
import proofs.«109320_j15152644621119_1_alg».proof.Proof.RefTail
import proofs.«109320_j15152644621119_1_alg».proof.Proof.RefScores
import Idealize.ShloMosaic.Adequacy
import Idealize.ShloMosaic.Init

noncomputable section

namespace Cert.Proof

open Idealize.ShloMosaic Idealize.SL.Sem

theorem frame_k : Cert.frame_Kernel := fun m ρ _ => Cert.Kernel.Region.frame m ρ

theorem frame_ki : Cert.frame_KernelIdeal := fun m ρ _ => Cert.KernelIdeal.Region.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- From arguments that agree, the idealized kernel program ends at `tail (G …)` of its arguments and the reference at
    `tail` of its own score stage, which is `G` of the same arguments. -/
theorem algebraic : Cert.algebraic_KernelIdeal_ReferenceIdeal := by
  intro m ρ m' ρ' _ hagree
  refine ⟨fun c => Cert.KernelIdeal.RunValue.loss m c, Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v61_eq, Cert.ReferenceIdeal.RefTail.loss_eq, Cert.ReferenceIdeal.RefScores.scores_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
